-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4 : Shape := ⟨1, ![4]⟩
abbrev S4096x4096 : Shape := ⟨2, ![4096, 4096]⟩
abbrev S4096 : Shape := ⟨1, ![4096]⟩
abbrev S32x4096 : Shape := ⟨2, ![32, 4096]⟩
abbrev S4096x32 : Shape := ⟨2, ![4096, 32]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg5 : FVec F S4096x32 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4096x32 .f32 := Host.absf main_arg5
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  main_v23

def fn {F : FTy → Type} [FloatOps F] (main_arg0 : FVec F S4x4096x4096 .f32) (main_arg1 : IVec S4 32) (main_arg2 : FVec F S4096x4096 .f32) (main_arg3 : FVec F S4096 .f32) (main_arg4 : FVec F S32x4096 .f32) (main_arg5 : FVec F S4096x32 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x4096 .f32 := Host.absf main_arg4
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg5 main_v13 main_v16
-- ==== Kernel.lean ====
abbrev S4x4096x4096 : Shape := ⟨3, ![4, 4096, 4096]⟩
abbrev S4 : Shape := ⟨1, ![4]⟩
abbrev S4096x4096 : Shape := ⟨2, ![4096, 4096]⟩
abbrev S4096 : Shape := ⟨1, ![4096]⟩
abbrev S32x4096 : Shape := ⟨2, ![32, 4096]⟩
abbrev S4096x32 : Shape := ⟨2, ![4096, 32]⟩
abbrev S_ : Shape := ⟨0, ![]⟩
abbrev S1x4096 : Shape := ⟨2, ![1, 4096]⟩
abbrev S4x1 : Shape := ⟨2, ![4, 1]⟩
abbrev S4x4096 : Shape := ⟨2, ![4, 4096]⟩
abbrev S4x4096x1 : Shape := ⟨3, ![4, 4096, 1]⟩
abbrev S1x512x1024 : Shape := ⟨3, ![1, 512, 1024]⟩
abbrev S512x1024 : Shape := ⟨2, ![512, 1024]⟩
abbrev S32x1024 : Shape := ⟨2, ![32, 1024]⟩
abbrev S512x32 : Shape := ⟨2, ![512, 32]⟩
abbrev S1x512 : Shape := ⟨2, ![1, 512]⟩
abbrev S1x512x1 : Shape := ⟨3, ![1, 512, 1]⟩
abbrev S1x512x512 : Shape := ⟨3, ![1, 512, 512]⟩
abbrev S512x512 : Shape := ⟨2, ![512, 512]⟩
abbrev S512x1 : Shape := ⟨2, ![512, 1]⟩

abbrev nBuf : Space → Nat
  | .hbm => 26
  | .vmem => 16
  | .smem => 0
  | _ => 0

abbrev bufTy : (tb : Table) → Fin (tcTables nBuf tb) → BufTy
  | .hbm, ⟨0, _⟩ => ⟨S4x4096x4096, .f32⟩
  | .hbm, ⟨1, _⟩ => ⟨S4, .i32⟩
  | .hbm, ⟨2, _⟩ => ⟨S4096x4096, .f32⟩
  | .hbm, ⟨3, _⟩ => ⟨S4096, .f32⟩
  | .hbm, ⟨4, _⟩ => ⟨S32x4096, .f32⟩
  | .hbm, ⟨5, _⟩ => ⟨S4096x32, .f32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S4x4096, .i32⟩
  | .hbm, ⟨16, _⟩ => ⟨S4x4096, .i32⟩
  | .hbm, ⟨17, _⟩ => ⟨S4x4096, .i1⟩
  | .hbm, ⟨18, _⟩ => ⟨S_, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096, .f32⟩
  | .hbm, ⟨23, _⟩ => ⟨S4x4096x1, .f32⟩
  | .hbm, ⟨24, _⟩ => ⟨S1x4096, .f32⟩
  | .hbm, ⟨25, _⟩ => ⟨S4x4096x4096, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S32x1024, .f32⟩
  | .local _ .vmem, ⟨5, _⟩ => ⟨S32x1024, .f32⟩
  | .local _ .vmem, ⟨6, _⟩ => ⟨S512x32, .f32⟩
  | .local _ .vmem, ⟨7, _⟩ => ⟨S512x32, .f32⟩
  | .local _ .vmem, ⟨8, _⟩ => ⟨S1x512, .f32⟩
  | .local _ .vmem, ⟨9, _⟩ => ⟨S1x512, .f32⟩
  | .local _ .vmem, ⟨10, _⟩ => ⟨S1x512x1, .f32⟩
  | .local _ .vmem, ⟨11, _⟩ => ⟨S1x512x1, .f32⟩
  | .local _ .vmem, ⟨12, _⟩ => ⟨S1x512x512, .f32⟩
  | .local _ .vmem, ⟨13, _⟩ => ⟨S1x512x512, .f32⟩
  | .local _ .vmem, ⟨14, _⟩ => ⟨S512x512, .f32⟩
  | .local _ .vmem, ⟨15, _⟩ => ⟨S512x32, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![4, 8, 8, 4], ![false, false, false, false]⟩

def k0_cond2 (i : grid0.Coords) : BitVec 1 :=
  let arg3 : BitVec 32 := BitVec.ofNat 32 (i 3).val
  let c3_i32 : BitVec 32 := 3#32
  let v22 : BitVec 1 := Scalar.cmpi .eq arg3 c3_i32
  let v23 : BitVec 32 := Scalar.extui v22
  let c0_i32_16 : BitVec 32 := 0#32
  let v24 : BitVec 1 := Scalar.cmpi .ne v23 c0_i32_16
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, false, true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

class Facts₀ : Prop where
  bcast_S_S4 : S_.BroadcastsInDim S4 (![] : Fin 0 → Fin S4.rank)
  bcast_S4096_S1x4096_1 : S4096.BroadcastsInDim S1x4096 (![1] : Fin 1 → Fin S1x4096.rank)
  bcast_S4_S4x1_0 : S4.BroadcastsInDim S4x1 (![0] : Fin 1 → Fin S4x1.rank)
  bcast_S1x4096_S4x4096_0_1 : S1x4096.BroadcastsInDim S4x4096 (![0, 1] : Fin 2 → Fin S4x4096.rank)
  bcast_S4x1_S4x4096_0_1 : S4x1.BroadcastsInDim S4x4096 (![0, 1] : Fin 2 → Fin S4x4096.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S32x1024_S32x1024_0_0 : ∀ a, (![0, 0] : Fin 2 → Nat) a + S32x1024.size a ≤ S32x1024.size a
  h_S32x1024 : 0 < S32x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x1024_S512x1024_S512x512_1_1_0_0_n_n_wf : DotDims.WF S512x1024 S512x1024 S512x512 [1] [1] [0] [0] [] []
  dot_S512x1024_S32x1024_S512x32_1_1_0_0_n_n_wf : DotDims.WF S512x1024 S32x1024 S512x32 [1] [1] [0] [0] [] []
  dot_S512x32_S512x32_S512x512_1_1_0_0_n_n_wf : DotDims.WF S512x32 S512x32 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x4096.size a
  hwx0_0 : ∀ i : grid0.Coords, EltTy.bits .f32 = 32 ∨ (Rect.block (s := S4x4096x4096) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x4096.size a
  hwx0_2 : ∀ i : grid0.Coords, EltTy.bits .f32 = 32 ∨ (Rect.block (s := S32x4096) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S4x4096x1.size a
  hwx0_5 : ∀ i : grid0.Coords, EltTy.bits .f32 = 32 ∨ (Rect.block (s := S4x4096x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S4x4096x4096.size a
  hwx0_6 : ∀ i : grid0.Coords, EltTy.bits .f32 = 32 ∨ (Rect.block (s := S4x4096x4096) S1x512x512.size (cc0_transform_6 i) (hinb0_6 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x1024_S32x1024_S512x32_1_1_0_0_n_n : DotDims S512x1024 S32x1024 S512x32 where
  lhsContracting := [1]
  rhsContracting := [1]
  lhsNonContracting := [0]
  rhsNonContracting := [0]
  lhsBatch := []
  rhsBatch := []
  wf := dot_S512x1024_S32x1024_S512x32_1_1_0_0_n_n_wf
def dot_S512x32_S512x32_S512x512_1_1_0_0_n_n : DotDims S512x32 S512x32 S512x512 where
  lhsContracting := [1]
  rhsContracting := [1]
  lhsNonContracting := [0]
  rhsNonContracting := [0]
  lhsBatch := []
  rhsBatch := []
  wf := dot_S512x32_S512x32_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4 : Shape := ⟨1, ![4]⟩
abbrev S4096x4096 : Shape := ⟨2, ![4096, 4096]⟩
abbrev S4096 : Shape := ⟨1, ![4096]⟩
abbrev S32x4096 : Shape := ⟨2, ![32, 4096]⟩
abbrev S4096x32 : Shape := ⟨2, ![4096, 32]⟩
abbrev S1x1x4096 : Shape := ⟨3, ![1, 1, 4096]⟩
abbrev S4x4096x32 : Shape := ⟨3, ![4, 4096, 32]⟩
abbrev S_ : Shape := ⟨0, ![]⟩
abbrev S1x4096 : Shape := ⟨2, ![1, 4096]⟩
abbrev S4x1 : Shape := ⟨2, ![4, 1]⟩
abbrev S4x4096 : Shape := ⟨2, ![4, 4096]⟩
abbrev S4x4096x1 : Shape := ⟨3, ![4, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4, .i32⟩
  | .hbm, ⟨2, _⟩ => ⟨S4096x4096, .f32⟩
  | .hbm, ⟨3, _⟩ => ⟨S4096, .f32⟩
  | .hbm, ⟨4, _⟩ => ⟨S32x4096, .f32⟩
  | .hbm, ⟨5, _⟩ => ⟨S4096x32, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S4x4096x32, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4096, .i32⟩
  | .hbm, ⟨19, _⟩ => ⟨S1x4096, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S4x4096, .i32⟩
  | .hbm, ⟨25, _⟩ => ⟨S4x4096, .i32⟩
  | .hbm, ⟨26, _⟩ => ⟨S4x4096, .i1⟩
  | .hbm, ⟨27, _⟩ => ⟨S4x4096x1, .i1⟩
  | .hbm, ⟨28, _⟩ => ⟨S_, .f32⟩
  | .hbm, ⟨29, _⟩ => ⟨S4x4096x4096, .i1⟩
  | .hbm, ⟨30, _⟩ => ⟨S4x4096x4096, .f32⟩
  | .hbm, ⟨31, _⟩ => ⟨S4x4096x4096, .f32⟩
  | .hbm, ⟨32, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S_S4 : S_.BroadcastsInDim S4 (![] : Fin 0 → Fin S4.rank)
  bcast_S4096_S1x4096_1 : S4096.BroadcastsInDim S1x4096 (![1] : Fin 1 → Fin S1x4096.rank)
  bcast_S4_S4x1_0 : S4.BroadcastsInDim S4x1 (![0] : Fin 1 → Fin S4x1.rank)
  bcast_S1x4096_S4x4096_0_1 : S1x4096.BroadcastsInDim S4x4096 (![0, 1] : Fin 2 → Fin S4x4096.rank)
  bcast_S4x1_S4x4096_0_1 : S4x1.BroadcastsInDim S4x4096 (![0, 1] : Fin 2 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S32x4096_S4x4096x32_2_1_01_0_n_n_wf : DotDims.WF S4x4096x4096 S32x4096 S4x4096x32 [2] [1] [0, 1] [0] [] []
  dot_S4x4096x32_S4096x32_S4x4096x4096_2_1_01_0_n_n_wf : DotDims.WF S4x4096x32 S4096x32 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S32x4096_S4x4096x32_2_1_01_0_n_n : DotDims S4x4096x4096 S32x4096 S4x4096x32 where
  lhsContracting := [2]
  rhsContracting := [1]
  lhsNonContracting := [0, 1]
  rhsNonContracting := [0]
  lhsBatch := []
  rhsBatch := []
  wf := dot_S4x4096x4096_S32x4096_S4x4096x32_2_1_01_0_n_n_wf
def dot_S4x4096x32_S4096x32_S4x4096x4096_2_1_01_0_n_n : DotDims S4x4096x32 S4096x32 S4x4096x4096 where
  lhsContracting := [2]
  rhsContracting := [1]
  lhsNonContracting := [0, 1]
  rhsNonContracting := [0]
  lhsBatch := []
  rhsBatch := []
  wf := dot_S4x4096x32_S4096x32_S4x4096x4096_2_1_01_0_n_n_wf

class Facts : Prop extends Facts₀ where

variable [Facts]
-- ==== Proof.Pieces.lean ====
/-
  What one run of the kernel body leaves behind, as plain terms of the body's arithmetic.

  The body keeps two accumulators between grid points: `acc` ([512, 512], the base projection
  `x · Wᵀ` summed over the K-blocks seen so far) and `h` ([512, 32], the low-rank activation
  `x · Aᵀ` summed likewise). Whatever the point, the body adds this point's two partial products:
  `acc ← acc + xₖ · Wₖᵀ` (the payload `k0_pay4`) and `h ← h + xₖ · Aₖᵀ` (`k0_pay5`). At the first
  K-block of a tile both accumulators are first set to zero (`k0_pay1`, `k0_pay2`), so the sums
  start from zero there; at the last K-block the output tile is written once, from the accumulators
  just updated, as `(acc + bias) + mask · (h · B_wᵀ)` (`k0_pay6`).

  The frame run records, for each of the three control cases, the stores it met as a list of
  pieces. Each lemma below reads that list back: every store covers its whole buffer, so what the
  buffer holds afterwards is the last store's value, and a load that follows a store of the same
  buffer reads exactly the value stored.
-/
import proofs.«145406_j498216206382_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Tactic
namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First K-block of a tile: the accumulators restart from zero -/

/-- `acc` after the first K-block: zero plus this block's `x · Wᵀ`. -/
theorem acc_first (c : Dev nD) (i : grid0.Coords) (arg4 : Memref sig .tc .vmem S1x512x1024 .f32) (harg4 : arg4.IsWhole) (arg5 : Memref sig .tc .vmem S512x1024 .f32) (harg5 : arg5.IsWhole) (arg6 : Memref sig .tc .vmem S32x1024 .f32) (harg6 : arg6.IsWhole) (arg7 : Memref sig .tc .vmem S512x32 .f32) (harg7 : arg7.IsWhole) (arg8 : Memref sig .tc .vmem S1x512 .f32) (harg8 : arg8.IsWhole) (arg9 : Memref sig .tc .vmem S1x512x1 .f32) (harg9 : arg9.IsWhole) (arg10 : Memref sig .tc .vmem S1x512x512 .f32) (harg10 : arg10.IsWhole) (arg11 : Memref sig .tc .vmem S512x512 .f32) (harg11 : arg11.IsWhole) (arg12 : Memref sig .tc .vmem S512x32 .f32) (harg12 : arg12.IsWhole) (hc0 : cond0_0 i) (hc1 : ¬cond0_1 i) (x0 : Vec F S1x512x1024 .f32) (x1 : Vec F S512x1024 .f32) (x2 : Vec F S32x1024 .f32) (x3 : Vec F S512x32 .f32) (x4 : Vec F S1x512 .f32) (x5 : Vec F S1x512x1 .f32) :
    sout0_A_0 c i arg4 harg4 arg5 harg5 arg6 harg6 arg7 harg7 arg8 harg8 arg9 harg9 arg10 harg10 arg11 harg11 arg12 harg12 hc0 hc1 x0 x1 x2 x3 x4 x5 = k0_pay4 x0 x1 k0_pay1 := by
  unfold sout0_A_0
  rw [View.read_writes_eq_canon _ _ _ (scover0_A_0 c i arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S512x512) hz2, View.readCov_unit_zero (S := S512x512) _ hz2]
  simp only [View.readAt_eq_ld, harg4.read_unread, harg5.read_unread, harg6.read_unread, harg7.read_unread, harg8.read_unread, harg9.read_unread, harg11.read_unread, harg12.read_unread,
    View.ld_unit_zero (S := S1x512x1024) hz3, View.ld_unit_zero (S := S512x1024) hz2, View.ld_unit_zero (S := S32x1024) hz2, View.ld_unit_zero (S := S512x32) hz2,
    View.ld_unit_zero (S := S1x512) hz2, View.ld_unit_zero (S := S1x512x1) hz3, View.ld_unit_zero (S := S512x512) hz2,
    View.readCov_unit_zero (S := S512x512) _ hz2, View.readCov_unit_zero (S := S512x32) _ hz2]

/-- `h` after the first K-block: zero plus this block's `x · Aᵀ`. -/
theorem h_first (c : Dev nD) (i : grid0.Coords) (arg4 : Memref sig .tc .vmem S1x512x1024 .f32) (harg4 : arg4.IsWhole) (arg5 : Memref sig .tc .vmem S512x1024 .f32) (harg5 : arg5.IsWhole) (arg6 : Memref sig .tc .vmem S32x1024 .f32) (harg6 : arg6.IsWhole) (arg7 : Memref sig .tc .vmem S512x32 .f32) (harg7 : arg7.IsWhole) (arg8 : Memref sig .tc .vmem S1x512 .f32) (harg8 : arg8.IsWhole) (arg9 : Memref sig .tc .vmem S1x512x1 .f32) (harg9 : arg9.IsWhole) (arg10 : Memref sig .tc .vmem S1x512x512 .f32) (harg10 : arg10.IsWhole) (arg11 : Memref sig .tc .vmem S512x512 .f32) (harg11 : arg11.IsWhole) (arg12 : Memref sig .tc .vmem S512x32 .f32) (harg12 : arg12.IsWhole) (hc0 : cond0_0 i) (hc1 : ¬cond0_1 i) (x0 : Vec F S1x512x1024 .f32) (x1 : Vec F S512x1024 .f32) (x2 : Vec F S32x1024 .f32) (x3 : Vec F S512x32 .f32) (x4 : Vec F S1x512 .f32) (x5 : Vec F S1x512x1 .f32) :
    sout0_A_1 c i arg4 harg4 arg5 harg5 arg6 harg6 arg7 harg7 arg8 harg8 arg9 harg9 arg10 harg10 arg11 harg11 arg12 harg12 hc0 hc1 x0 x1 x2 x3 x4 x5 = k0_pay5 x0 x2 k0_pay2 := by
  unfold sout0_A_1
  rw [View.read_writes_eq_canon _ _ _ (scover0_A_1 c i arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S512x32) hz2, View.readCov_unit_zero (S := S512x32) _ hz2]
  simp only [View.readAt_eq_ld, harg4.read_unread, harg5.read_unread, harg6.read_unread, harg7.read_unread, harg8.read_unread, harg9.read_unread, harg11.read_unread, harg12.read_unread,
    View.ld_unit_zero (S := S1x512x1024) hz3, View.ld_unit_zero (S := S512x1024) hz2, View.ld_unit_zero (S := S32x1024) hz2, View.ld_unit_zero (S := S512x32) hz2,
    View.ld_unit_zero (S := S1x512) hz2, View.ld_unit_zero (S := S1x512x1) hz3, View.ld_unit_zero (S := S512x512) hz2,
    View.readCov_unit_zero (S := S512x512) _ hz2, View.readCov_unit_zero (S := S512x32) _ hz2]

/-! ## A middle K-block: one more partial product on each accumulator -/

/-- `acc` after a middle K-block: what the point before left, plus this block's `x · Wᵀ`. -/
theorem acc_mid (c : Dev nD) (i : grid0.Coords) (arg4 : Memref sig .tc .vmem S1x512x1024 .f32) (harg4 : arg4.IsWhole) (arg5 : Memref sig .tc .vmem S512x1024 .f32) (harg5 : arg5.IsWhole) (arg6 : Memref sig .tc .vmem S32x1024 .f32) (harg6 : arg6.IsWhole) (arg7 : Memref sig .tc .vmem S512x32 .f32) (harg7 : arg7.IsWhole) (arg8 : Memref sig .tc .vmem S1x512 .f32) (harg8 : arg8.IsWhole) (arg9 : Memref sig .tc .vmem S1x512x1 .f32) (harg9 : arg9.IsWhole) (arg10 : Memref sig .tc .vmem S1x512x512 .f32) (harg10 : arg10.IsWhole) (arg11 : Memref sig .tc .vmem S512x512 .f32) (harg11 : arg11.IsWhole) (arg12 : Memref sig .tc .vmem S512x32 .f32) (harg12 : arg12.IsWhole) (hc0 : ¬cond0_0 i) (hc1 : ¬cond0_1 i) (x0 : Vec F S1x512x1024 .f32) (x1 : Vec F S512x1024 .f32) (x2 : Vec F S32x1024 .f32) (x3 : Vec F S512x32 .f32) (x4 : Vec F S1x512 .f32) (x5 : Vec F S1x512x1 .f32) (xs0 : Vec F S512x512 .f32) (xs1 : Vec F S512x32 .f32) :
    sout0_B_0 c i arg4 harg4 arg5 harg5 arg6 harg6 arg7 harg7 arg8 harg8 arg9 harg9 arg10 harg10 arg11 harg11 arg12 harg12 hc0 hc1 x0 x1 x2 x3 x4 x5 xs0 xs1 = k0_pay4 x0 x1 xs0 := by
  unfold sout0_B_0
  rw [View.read_writes_eq_canon _ _ _ (scover0_B_0 c i arg4 harg4 arg5 harg5 arg6 harg6 arg7 harg7 arg8 harg8 arg9 harg9 arg10 harg10 arg11 harg11 arg12 harg12 hc0 hc1 x0 x1 x2 x3 x4 x5 xs0 xs1)]
  unfold kernelRun0_B
  dsimp only
  sl_unfold_words
  rw [View.canon_unit_zero hz2]
  simp only [View.readAt_eq_ld, harg4.read_unread, harg5.read_unread, harg6.read_unread, harg7.read_unread, harg8.read_unread, harg9.read_unread, harg11.read_unread, harg12.read_unread,
    View.ld_unit_zero (S := S1x512x1024) hz3, View.ld_unit_zero (S := S512x1024) hz2, View.ld_unit_zero (S := S32x1024) hz2, View.ld_unit_zero (S := S512x32) hz2,
    View.ld_unit_zero (S := S1x512) hz2, View.ld_unit_zero (S := S1x512x1) hz3, View.ld_unit_zero (S := S512x512) hz2,
    View.readCov_unit_zero (S := S512x512) _ hz2, View.readCov_unit_zero (S := S512x32) _ hz2]

/-- `h` after a middle K-block: what the point before left, plus this block's `x · Aᵀ`. -/
theorem h_mid (c : Dev nD) (i : grid0.Coords) (arg4 : Memref sig .tc .vmem S1x512x1024 .f32) (harg4 : arg4.IsWhole) (arg5 : Memref sig .tc .vmem S512x1024 .f32) (harg5 : arg5.IsWhole) (arg6 : Memref sig .tc .vmem S32x1024 .f32) (harg6 : arg6.IsWhole) (arg7 : Memref sig .tc .vmem S512x32 .f32) (harg7 : arg7.IsWhole) (arg8 : Memref sig .tc .vmem S1x512 .f32) (harg8 : arg8.IsWhole) (arg9 : Memref sig .tc .vmem S1x512x1 .f32) (harg9 : arg9.IsWhole) (arg10 : Memref sig .tc .vmem S1x512x512 .f32) (harg10 : arg10.IsWhole) (arg11 : Memref sig .tc .vmem S512x512 .f32) (harg11 : arg11.IsWhole) (arg12 : Memref sig .tc .vmem S512x32 .f32) (harg12 : arg12.IsWhole) (hc0 : ¬cond0_0 i) (hc1 : ¬cond0_1 i) (x0 : Vec F S1x512x1024 .f32) (x1 : Vec F S512x1024 .f32) (x2 : Vec F S32x1024 .f32) (x3 : Vec F S512x32 .f32) (x4 : Vec F S1x512 .f32) (x5 : Vec F S1x512x1 .f32) (xs0 : Vec F S512x512 .f32) (xs1 : Vec F S512x32 .f32) :
    sout0_B_1 c i arg4 harg4 arg5 harg5 arg6 harg6 arg7 harg7 arg8 harg8 arg9 harg9 arg10 harg10 arg11 harg11 arg12 harg12 hc0 hc1 x0 x1 x2 x3 x4 x5 xs0 xs1 = k0_pay5 x0 x2 xs1 := by
  unfold sout0_B_1
  rw [View.read_writes_eq_canon _ _ _ (scover0_B_1 c i arg4 harg4 arg5 harg5 arg6 harg6 arg7 harg7 arg8 harg8 arg9 harg9 arg10 harg10 arg11 harg11 arg12 harg12 hc0 hc1 x0 x1 x2 x3 x4 x5 xs0 xs1)]
  unfold kernelRun0_B
  dsimp only
  sl_unfold_words
  rw [View.canon_unit_zero hz2]
  simp only [View.readAt_eq_ld, harg4.read_unread, harg5.read_unread, harg6.read_unread, harg7.read_unread, harg8.read_unread, harg9.read_unread, harg11.read_unread, harg12.read_unread,
    View.ld_unit_zero (S := S1x512x1024) hz3, View.ld_unit_zero (S := S512x1024) hz2, View.ld_unit_zero (S := S32x1024) hz2, View.ld_unit_zero (S := S512x32) hz2,
    View.ld_unit_zero (S := S1x512) hz2, View.ld_unit_zero (S := S1x512x1) hz3, View.ld_unit_zero (S := S512x512) hz2,
    View.readCov_unit_zero (S := S512x512) _ hz2, View.readCov_unit_zero (S := S512x32) _ hz2]

/-! ## Last K-block: the accumulators updated once more, then the output tile -/

/-- `acc` after the last K-block. -/
theorem acc_last (c : Dev nD) (i : grid0.Coords) (arg4 : Memref sig .tc .vmem S1x512x1024 .f32) (harg4 : arg4.IsWhole) (arg5 : Memref sig .tc .vmem S512x1024 .f32) (harg5 : arg5.IsWhole) (arg6 : Memref sig .tc .vmem S32x1024 .f32) (harg6 : arg6.IsWhole) (arg7 : Memref sig .tc .vmem S512x32 .f32) (harg7 : arg7.IsWhole) (arg8 : Memref sig .tc .vmem S1x512 .f32) (harg8 : arg8.IsWhole) (arg9 : Memref sig .tc .vmem S1x512x1 .f32) (harg9 : arg9.IsWhole) (arg10 : Memref sig .tc .vmem S1x512x512 .f32) (harg10 : arg10.IsWhole) (arg11 : Memref sig .tc .vmem S512x512 .f32) (harg11 : arg11.IsWhole) (arg12 : Memref sig .tc .vmem S512x32 .f32) (harg12 : arg12.IsWhole) (hc0 : ¬cond0_0 i) (hc1 : cond0_1 i) (x0 : Vec F S1x512x1024 .f32) (x1 : Vec F S512x1024 .f32) (x2 : Vec F S32x1024 .f32) (x3 : Vec F S512x32 .f32) (x4 : Vec F S1x512 .f32) (x5 : Vec F S1x512x1 .f32) (xs0 : Vec F S512x512 .f32) (xs1 : Vec F S512x32 .f32) :
    sout0_C_0 c i arg4 harg4 arg5 harg5 arg6 harg6 arg7 harg7 arg8 harg8 arg9 harg9 arg10 harg10 arg11 harg11 arg12 harg12 hc0 hc1 x0 x1 x2 x3 x4 x5 xs0 xs1 = k0_pay4 x0 x1 xs0 := by
  unfold sout0_C_0
  rw [View.read_writes_eq_canon _ _ _ (scover0_C_0 c i arg4 harg4 arg5 harg5 arg6 harg6 arg7 harg7 arg8 harg8 arg9 harg9 arg10 harg10 arg11 harg11 arg12 harg12 hc0 hc1 x0 x1 x2 x3 x4 x5 xs0 xs1)]
  unfold kernelRun0_C
  dsimp only
  sl_unfold_words
  rw [View.canon_unit_zero hz2]
  simp only [View.readAt_eq_ld, harg4.read_unread, harg5.read_unread, harg6.read_unread, harg7.read_unread, harg8.read_unread, harg9.read_unread, harg11.read_unread, harg12.read_unread,
    View.ld_unit_zero (S := S1x512x1024) hz3, View.ld_unit_zero (S := S512x1024) hz2, View.ld_unit_zero (S := S32x1024) hz2, View.ld_unit_zero (S := S512x32) hz2,
    View.ld_unit_zero (S := S1x512) hz2, View.ld_unit_zero (S := S1x512x1) hz3, View.ld_unit_zero (S := S512x512) hz2,
    View.readCov_unit_zero (S := S512x512) _ hz2, View.readCov_unit_zero (S := S512x32) _ hz2]

/-- `h` after the last K-block. -/
theorem h_last (c : Dev nD) (i : grid0.Coords) (arg4 : Memref sig .tc .vmem S1x512x1024 .f32) (harg4 : arg4.IsWhole) (arg5 : Memref sig .tc .vmem S512x1024 .f32) (harg5 : arg5.IsWhole) (arg6 : Memref sig .tc .vmem S32x1024 .f32) (harg6 : arg6.IsWhole) (arg7 : Memref sig .tc .vmem S512x32 .f32) (harg7 : arg7.IsWhole) (arg8 : Memref sig .tc .vmem S1x512 .f32) (harg8 : arg8.IsWhole) (arg9 : Memref sig .tc .vmem S1x512x1 .f32) (harg9 : arg9.IsWhole) (arg10 : Memref sig .tc .vmem S1x512x512 .f32) (harg10 : arg10.IsWhole) (arg11 : Memref sig .tc .vmem S512x512 .f32) (harg11 : arg11.IsWhole) (arg12 : Memref sig .tc .vmem S512x32 .f32) (harg12 : arg12.IsWhole) (hc0 : ¬cond0_0 i) (hc1 : cond0_1 i) (x0 : Vec F S1x512x1024 .f32) (x1 : Vec F S512x1024 .f32) (x2 : Vec F S32x1024 .f32) (x3 : Vec F S512x32 .f32) (x4 : Vec F S1x512 .f32) (x5 : Vec F S1x512x1 .f32) (xs0 : Vec F S512x512 .f32) (xs1 : Vec F S512x32 .f32) :
    sout0_C_1 c i arg4 harg4 arg5 harg5 arg6 harg6 arg7 harg7 arg8 harg8 arg9 harg9 arg10 harg10 arg11 harg11 arg12 harg12 hc0 hc1 x0 x1 x2 x3 x4 x5 xs0 xs1 = k0_pay5 x0 x2 xs1 := by
  unfold sout0_C_1
  rw [View.read_writes_eq_canon _ _ _ (scover0_C_1 c i arg4 harg4 arg5 harg5 arg6 harg6 arg7 harg7 arg8 harg8 arg9 harg9 arg10 harg10 arg11 harg11 arg12 harg12 hc0 hc1 x0 x1 x2 x3 x4 x5 xs0 xs1)]
  unfold kernelRun0_C
  dsimp only
  sl_unfold_words
  rw [View.canon_unit_zero hz2]
  simp only [View.readAt_eq_ld, harg4.read_unread, harg5.read_unread, harg6.read_unread, harg7.read_unread, harg8.read_unread, harg9.read_unread, harg11.read_unread, harg12.read_unread,
    View.ld_unit_zero (S := S1x512x1024) hz3, View.ld_unit_zero (S := S512x1024) hz2, View.ld_unit_zero (S := S32x1024) hz2, View.ld_unit_zero (S := S512x32) hz2,
    View.ld_unit_zero (S := S1x512) hz2, View.ld_unit_zero (S := S1x512x1) hz3, View.ld_unit_zero (S := S512x512) hz2,
    View.readCov_unit_zero (S := S512x512) _ hz2, View.readCov_unit_zero (S := S512x32) _ hz2]

/-- The output tile written at the last K-block: the epilogue `k0_pay6` of the `B_w` block, the
    two accumulators as just updated, the bias block and the mask block. -/
theorem out_last (c : Dev nD) (i : grid0.Coords) (arg4 : Memref sig .tc .vmem S1x512x1024 .f32) (harg4 : arg4.IsWhole) (arg5 : Memref sig .tc .vmem S512x1024 .f32) (harg5 : arg5.IsWhole) (arg6 : Memref sig .tc .vmem S32x1024 .f32) (harg6 : arg6.IsWhole) (arg7 : Memref sig .tc .vmem S512x32 .f32) (harg7 : arg7.IsWhole) (arg8 : Memref sig .tc .vmem S1x512 .f32) (harg8 : arg8.IsWhole) (arg9 : Memref sig .tc .vmem S1x512x1 .f32) (harg9 : arg9.IsWhole) (arg10 : Memref sig .tc .vmem S1x512x512 .f32) (harg10 : arg10.IsWhole) (arg11 : Memref sig .tc .vmem S512x512 .f32) (harg11 : arg11.IsWhole) (arg12 : Memref sig .tc .vmem S512x32 .f32) (harg12 : arg12.IsWhole) (hc0 : ¬cond0_0 i) (hc1 : cond0_1 i) (x0 : Vec F S1x512x1024 .f32) (x1 : Vec F S512x1024 .f32) (x2 : Vec F S32x1024 .f32) (x3 : Vec F S512x32 .f32) (x4 : Vec F S1x512 .f32) (x5 : Vec F S1x512x1 .f32) (xs0 : Vec F S512x512 .f32) (xs1 : Vec F S512x32 .f32) :
    out0_C_6 c i arg4 harg4 arg5 harg5 arg6 harg6 arg7 harg7 arg8 harg8 arg9 harg9 arg10 harg10 arg11 harg11 arg12 harg12 hc0 hc1 x0 x1 x2 x3 x4 x5 xs0 xs1 = k0_pay6 x3 (k0_pay5 x0 x2 xs1) (k0_pay4 x0 x1 xs0) x4 x5 := by
  unfold out0_C_6
  rw [View.read_writes_eq_canon _ _ _ (cover0_C_6 c i arg4 harg4 arg5 harg5 arg6 harg6 arg7 harg7 arg8 harg8 arg9 harg9 arg10 harg10 arg11 harg11 arg12 harg12 hc0 hc1 x0 x1 x2 x3 x4 x5 xs0 xs1)]
  unfold kernelRun0_C
  dsimp only
  sl_unfold_words
  rw [View.canon_unit_zero hz3]
  simp only [View.readAt_eq_ld, harg4.read_unread, harg5.read_unread, harg6.read_unread, harg7.read_unread, harg8.read_unread, harg9.read_unread, harg11.read_unread, harg12.read_unread,
    View.ld_unit_zero (S := S1x512x1024) hz3, View.ld_unit_zero (S := S512x1024) hz2, View.ld_unit_zero (S := S32x1024) hz2, View.ld_unit_zero (S := S512x32) hz2,
    View.ld_unit_zero (S := S1x512) hz2, View.ld_unit_zero (S := S1x512x1) hz3, View.ld_unit_zero (S := S512x512) hz2,
    View.readCov_unit_zero (S := S512x512) _ hz2, View.readCov_unit_zero (S := S512x32) _ hz2]

end Cert.KernelIdeal.Pieces

end
-- ==== Proof.LibMatmulNT.lean ====
/-
  A matrix product that contracts BOTH operands' last axes, read at an index over the extended reals.

  `DotDims.transposedRhs M K N` are the dimension numbers of `lhs · rhsᵀ` for `lhs : [M, K]` and
  `rhs : [N, K]`: the result is `[M, N]` and entry `(p, q)` pairs row `p` of the left operand with
  row `q` of the right one. At the ideal instance a `tpu.matmul` into the zero accumulator is the
  plain sum of products over the contraction index, so

      (lhs · rhsᵀ) (p, q) = ∑ k : Fin K, lhs (p, k) * rhs (q, k),

  whatever the operands' float formats (a format is not part of an extended real) and whatever the
  precision hint. The proof names where the dot's two index maps send an output index and a
  contraction index, axis by axis, and re-indexes the sum from the dot's one-axis contraction shape
  to `Fin K`.
-/
import Idealize.ShloMosaic.PureOps.Ideal.Laws
import Idealize.ShloMosaic.Lib.ValueIdx

noncomputable section

namespace Cert.LibMatmulNT

open Idealize.ShloMosaic Idealize.ShloMosaic.ValueIdx

variable {M K N : ℕ}

/-- The left operand is read at the output's row … -/
theorem lhs_axis0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from fun h => by cases h),
    dif_pos (show (0 : Fin (⟨2, ![M, K]⟩ : Shape).rank) ∈ (DotDims.transposedRhs M K N).lhsNonContracting from List.Mem.head _)]
  rfl

/-- … and at the contraction index on its last axis. -/
theorem lhs_axis1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand is read at the output's COLUMN on its first axis … -/
theorem rhs_axis0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from fun h => by cases h),
    dif_pos (show (0 : Fin (⟨2, ![N, K]⟩ : Shape).rank) ∈ (DotDims.transposedRhs M K N).rhsNonContracting from List.Mem.head _)]
  rfl

/-- … and at the contraction index on its last axis. -/
theorem rhs_axis1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- `lhs · rhsᵀ` into the zero accumulator, at entry `(p, q)`: the sum over `k` of `lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_axis0 _ _
      | ⟨1, _⟩ => exact (lhs_axis1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_axis0 _ _
      | ⟨1, _⟩ => exact (rhs_axis1 _ _).trans hk)
  rw [el, er]

end Cert.LibMatmulNT

end
-- ==== Proof.BodyAt.lean ====
/-
  The kernel body's arithmetic, entry by entry, over the extended reals.

  Written `x` for the point's [1, 512, 1024] block of the activations, `w` and `a` for its
  [512, 1024] and [32, 1024] blocks of the two weight matrices, and `(p, q)` for a row and a column
  of the tile:

    * the two resets store `0` everywhere;
    * the base accumulator's update is `acc (p, q) + ∑ j, x (0, p, j) * w (q, j)`;
    * the low-rank accumulator's update is `h (p, r) + ∑ j, x (0, p, j) * a (r, j)`;
    * the output tile is `(acc (p, q) + bias (0, q)) + mask (0, p, 0) * ∑ r, h (p, r) * bw (q, r)`.

  Rounding to bf16 before each product is the identity on an extended real, a unit axis added or
  dropped by a shape cast does not move an entry, the bias row is repeated down the rows and the
  mask column across the columns; the three matrix products contract both operands' last axes.
-/
import proofs.«145406_j498216206382_1_alg».proof.Proof.Gen.KernelIdeal.Skeleton
import proofs.«145406_j498216206382_1_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.BodyAt

open Cert.KernelIdeal Cert.KernelIdeal.Gen Idealize.ShloMosaic.ValueIdx

/-- A column repeated across the columns: `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The base accumulator's reset value is `0` at every entry. -/
theorem acc_reset_apply (i : S512x512.Idx) : k0_pay1 (F := Ideal) i = 0 := by
  unfold k0_pay1
  rw [shapeCast_self]
  exact Ideal.ofBits_zero_f32

/-- The low-rank accumulator's reset value is `0` at every entry. -/
theorem h_reset_apply (i : S512x32.Idx) : k0_pay2 (F := Ideal) i = 0 := by
  unfold k0_pay2
  rw [shapeCast_self]
  exact Ideal.ofBits_zero_f32

/-- The base accumulator's update at `(p, q)`: the old entry plus row `p` of `x` against row `q` of `w`. -/
theorem acc_step_apply (x : Vec Ideal S1x512x1024 .f32) (w : Vec Ideal S512x1024 .f32) (acc : Vec Ideal S512x512 .f32)
    (p q : Fin 512) :
    k0_pay4 (F := Ideal) x w acc (ix2 p q) = acc (ix2 p q) + ∑ j : Fin 1024, x (ix3 (0 : Fin 1) p j) * w (ix2 q j) := by
  unfold k0_pay4 k0_pay3
  rw [shapeCast_self]
  refine congrArg (acc (ix2 p q) + ·) ?_
  refine (Cert.LibMatmulNT.matmul_zero_apply (M := 512) (K := 1024) (N := 512) none _ _ p q).trans ?_
  refine Finset.sum_congr rfl fun j _ => ?_
  rw [truncf_apply, truncf_apply, shapeCast_1ab_ab_apply]

/-- The low-rank accumulator's update at `(p, r)`: the old entry plus row `p` of `x` against row `r` of `a`. -/
theorem h_step_apply (x : Vec Ideal S1x512x1024 .f32) (a : Vec Ideal S32x1024 .f32) (h : Vec Ideal S512x32 .f32)
    (p : Fin 512) (r : Fin 32) :
    k0_pay5 (F := Ideal) x a h (ix2 p r) = h (ix2 p r) + ∑ j : Fin 1024, x (ix3 (0 : Fin 1) p j) * a (ix2 r j) := by
  unfold k0_pay5 k0_pay3
  rw [shapeCast_self]
  refine congrArg (h (ix2 p r) + ·) ?_
  refine (Cert.LibMatmulNT.matmul_zero_apply (M := 512) (K := 1024) (N := 32) none _ _ p r).trans ?_
  refine Finset.sum_congr rfl fun j _ => ?_
  rw [truncf_apply, truncf_apply, shapeCast_1ab_ab_apply]

/-- The output tile at `(u, p, q)`: base accumulator plus bias, plus the mask entry of row `p` times the
    low-rank accumulator's row `p` against row `q` of `bw`. -/
theorem out_apply (bw : Vec Ideal S512x32 .f32) (h : Vec Ideal S512x32 .f32) (acc : Vec Ideal S512x512 .f32)
    (bias : Vec Ideal S1x512 .f32) (mask : Vec Ideal S1x512x1 .f32) (u : Fin 1) (p q : Fin 512) :
    k0_pay6 (F := Ideal) bw h acc bias mask (ix3 u p q)
      = (acc (ix2 p q) + bias (ix2 (0 : Fin 1) q))
        + mask (ix3 (0 : Fin 1) p (0 : Fin 1)) * ∑ r : Fin 32, h (ix2 p r) * bw (ix2 q r) := by
  unfold k0_pay6
  rw [shapeCast_ab_1ab_apply]
  show (acc (ix2 p q) + _) + _ * _ = _
  rw [broadcastTo_1b_ab_apply, shapeCast_self, broadcastTo_a1_ab_apply, shapeCast_1ab_ab_apply]
  refine congrArg (fun z => (acc (ix2 p q) + bias (ix2 (0 : Fin 1) q)) + mask (ix3 (0 : Fin 1) p (0 : Fin 1)) * z) ?_
  refine (Cert.LibMatmulNT.matmul_zero_apply (M := 512) (K := 32) (N := 512) none _ _ p q).trans ?_
  refine Finset.sum_congr rfl fun r _ => ?_
  rw [truncf_apply, truncf_apply]

end Cert.KernelIdeal.BodyAt

end
-- ==== Proof.Spec.lean ====
/-
  The activated low-rank linear layer, index by index, over the extended reals.

  For a batch entry `b`, a sequence position `s` and an output feature `o` the result is

      base (b, s, o) + (if s is in sequence b's tail then lowRank (b, s, o) * 2 else 0)

  with `base (b, s, o) = ∑ d, x (b, s, d) * W (o, d) + bias o` the ordinary linear layer and
  `lowRank (b, s, o) = ∑ r, (∑ d, x (b, s, d) * A (r, d)) * B_w (o, r)` the rank-32 correction. The tail of
  sequence `b` is its last `min (offset b, 4096)` positions: position `s` is in it when
  `s ≥ 4096 - min (offset b, 4096)`, compared as signed 32-bit words, which is how both programs
  compute it. The two float constants `2` and `0` are kept as their bit patterns.

  A kernel may instead multiply the correction by a per-position factor that is `2` in the tail and
  `0` outside it. On the extended reals `0 * L = 0` for EVERY `L`, infinite ones included, and the
  product commutes, so the two spellings agree without any finiteness assumption (`scaled_eq_selected`).
-/
import Idealize.ShloMosaic.PureOps.Ideal
import Idealize.ShloMosaic.PureOps.Ideal.Laws
import Idealize.ShloMosaic.Lib.ValueIdx

noncomputable section

namespace Cert.ALoraSpec

open Idealize.ShloMosaic Idealize.ShloMosaic.ValueIdx

/-- The float constant `2.0`, as both programs print it. -/
abbrev two : EReal := Ideal.ofBits .f32 0x40000000#32
/-- The float constant `0.0`, as both programs print it. -/
abbrev zero : EReal := Ideal.ofBits .f32 0x00000000#32

/-- Whether position `s` lies in the tail of sequence `b`: `s ≥ 4096 - min (offset b, 4096)` on signed 32-bit words. -/
def inTail (off : IVec ⟨1, ![4]⟩ 32) (b : Fin 4) (s : Fin 4096) : BitVec 1 :=
  IntOp.cmpi .sge (BitVec.ofNat 32 s.val) (IntOp.subi 4096#32 (IntOp.minsi (off (ix1 b)) 4096#32))

/-- The ordinary linear layer `x · Wᵀ + bias` at `(b, s, o)`. -/
def base (x : FVec Ideal ⟨3, ![4, 4096, 4096]⟩ .f32) (W : FVec Ideal ⟨2, ![4096, 4096]⟩ .f32) (bias : FVec Ideal ⟨1, ![4096]⟩ .f32)
    (b : Fin 4) (s o : Fin 4096) : EReal :=
  (∑ d : Fin 4096, x (ix3 b s d) * W (ix2 o d)) + bias (ix1 o)

/-- The activation projected to rank 32: `(x · Aᵀ) (b, s, r)`. -/
def proj (x : FVec Ideal ⟨3, ![4, 4096, 4096]⟩ .f32) (A : FVec Ideal ⟨2, ![32, 4096]⟩ .f32) (b : Fin 4) (s : Fin 4096) (r : Fin 32) : EReal :=
  ∑ d : Fin 4096, x (ix3 b s d) * A (ix2 r d)

/-- The rank-32 correction `(x · Aᵀ) · B_wᵀ` at `(b, s, o)`. -/
def lowRank (x : FVec Ideal ⟨3, ![4, 4096, 4096]⟩ .f32) (A : FVec Ideal ⟨2, ![32, 4096]⟩ .f32) (Bw : FVec Ideal ⟨2, ![4096, 32]⟩ .f32)
    (b : Fin 4) (s o : Fin 4096) : EReal :=
  ∑ r : Fin 32, proj x A b s r * Bw (ix2 o r)

/-- THE RESULT, index by index. -/
def G (x : FVec Ideal ⟨3, ![4, 4096, 4096]⟩ .f32) (off : IVec ⟨1, ![4]⟩ 32) (W : FVec Ideal ⟨2, ![4096, 4096]⟩ .f32)
    (bias : FVec Ideal ⟨1, ![4096]⟩ .f32) (A : FVec Ideal ⟨2, ![32, 4096]⟩ .f32) (Bw : FVec Ideal ⟨2, ![4096, 32]⟩ .f32) :
    FVec Ideal ⟨3, ![4, 4096, 4096]⟩ .f32 := fun i =>
  base x W bias (i 0) (i 1) (i 2) + Scalar.select (inTail off (i 0) (i 1)) (lowRank x A Bw (i 0) (i 1) (i 2) * two) zero

/-- Scaling the correction by a factor that is `2` in the tail and `0` outside it is selecting `correction * 2` in the
    tail and `0` outside it: `2 * L = L * 2`, and `0 * L = 0` whatever `L` is. -/
theorem scaled_eq_selected (β : BitVec 1) (L : EReal) :
    Scalar.select β two zero * L = Scalar.select β (L * two) zero := by
  by_cases h : β = 1#1
  · rw [h, select_one, select_one, mul_comm]
  · rw [eq_zero_of_ne_one h, select_zero, select_zero]
    show Ideal.ofBits .f32 0x00000000#32 * L = Ideal.ofBits .f32 0x00000000#32
    rw [Ideal.ofBits_zero_f32, zero_mul]

end Cert.ALoraSpec

end
-- ==== Proof.Blocks.lean ====
/-
  The blocks the pipeline hands the kernel body at a grid point, as entries of the whole arrays.

  The grid is 4 × 8 × 8 × 4 — batch entry, row tile, column tile, K-block, the K-block running
  fastest — so point number `t` is batch entry `t / 256`, row tile `t / 32 % 8`, column tile
  `t / 4 % 8` and K-block `t % 4` (decided once over the 1024 points, `idx_facts`). A block's entry
  sits in its array at (block index × block extent + the coordinate inside the block) on every axis:

    * `x`'s [1, 512, 1024] block: batch entry, rows of the row tile, columns of the K-block;
    * `W`'s [512, 1024] block: rows of the column tile, columns of the K-block;
    * `A`'s [32, 1024] block: all 32 rows, columns of the K-block;
    * `B_w`'s [512, 32] block: rows of the column tile, all 32 columns;
    * the bias row's [1, 512] block: the columns of the column tile;
    * the mask column's [1, 512, 1] block: batch entry, rows of the row tile.

  The bias row is the bias vector reshaped to one row. The mask column holds, at batch entry `b` and
  position `s`, the factor `2` when `s` lies in the tail of sequence `b` and `0` when it does not: the
  program before the kernel builds it from the offsets by a signed comparison and a select.
-/
import proofs.«145406_j498216206382_1_alg».proof.Proof.Gen.KernelIdeal.Value
import proofs.«145406_j498216206382_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx Idealize.ShloMosaic.StableHlo

variable {F : FTy → Type} [FloatOps F]
variable (m : (ℓ : Loc nD τ sig) → Buf (Elt F) ℓ)

/-! ## The six input blocks at a point, at their literal shapes -/

abbrev xblk (c : Dev nD) (t : Fin cfg0.N) : Vec F S1x512x1024 .f32 := iblk m c 0 t
abbrev wblk (c : Dev nD) (t : Fin cfg0.N) : Vec F S512x1024 .f32 := iblk m c 1 t
abbrev ablk (c : Dev nD) (t : Fin cfg0.N) : Vec F S32x1024 .f32 := iblk m c 2 t
abbrev bwblk (c : Dev nD) (t : Fin cfg0.N) : Vec F S512x32 .f32 := iblk m c 3 t
abbrev biasblk (c : Dev nD) (t : Fin cfg0.N) : Vec F S1x512 .f32 := iblk m c 4 t
abbrev maskblk (c : Dev nD) (t : Fin cfg0.N) : Vec F S1x512x1 .f32 := iblk m c 5 t

/-- Every window's block index at point `t`, in closed form: the seven index maps decided over the grid's 1024 points. -/
theorem idx_facts : ∀ t : Fin cfg0.N,
    win0_0.index t (0 : Fin 3) = t.val / 256 ∧ win0_0.index t (1 : Fin 3) = t.val / 32 % 8 ∧ win0_0.index t (2 : Fin 3) = t.val % 4
    ∧ win0_1.index t (0 : Fin 2) = t.val / 4 % 8 ∧ win0_1.index t (1 : Fin 2) = t.val % 4
    ∧ win0_2.index t (0 : Fin 2) = 0 ∧ win0_2.index t (1 : Fin 2) = t.val % 4
    ∧ win0_3.index t (0 : Fin 2) = t.val / 4 % 8 ∧ win0_3.index t (1 : Fin 2) = 0
    ∧ win0_4.index t (0 : Fin 2) = 0 ∧ win0_4.index t (1 : Fin 2) = t.val / 4 % 8
    ∧ win0_5.index t (0 : Fin 3) = t.val / 256 ∧ win0_5.index t (1 : Fin 3) = t.val / 32 % 8 ∧ win0_5.index t (2 : Fin 3) = 0
    ∧ win0_6.index t (0 : Fin 3) = t.val / 256 ∧ win0_6.index t (1 : Fin 3) = t.val / 32 % 8 ∧ win0_6.index t (2 : Fin 3) = t.val / 4 % 8 :=
  (by decide +kernel : ∀ t : Fin grid0.N, _)

/-! ## Each block's entry is an entry of its array -/

/-- Entry `(u, p, j)` of `x`'s block: batch entry `t / 256`, row `p` of row tile `t / 32 % 8`, column `j` of K-block `t % 4`. -/
theorem xblk_apply (c : Dev nD) (t : Fin cfg0.N) (u : Fin 1) (p : Fin 512) (j : Fin 1024) (g : S4x4096x4096.Idx)
    (h0 : (g 0).val = t.val / 256) (h1 : (g 1).val = 512 * (t.val / 32 % 8) + p.val) (h2 : (g 2).val = 1024 * (t.val % 4) + j.val) :
    xblk m c t (ix3 u p j) = V m c main_arg0 g := by
  obtain ⟨e00, e01, e02, e10, e11, e20, e21, e30, e31, e40, e41, e50, e51, e52, -⟩ := idx_facts t
  unfold xblk iblk
  rw [View.read_apply]
  show V m c main_arg0 (((cfg0.win 0).blk t).view.emb (ix3 u p j)) = V m c main_arg0 g
  refine congrArg (V m c main_arg0) (funext fun a => Fin.ext ?_)
  match a with
  | ⟨0, _⟩ => show win0_0.index t (0 : Fin 3) * 1 + 1 * u.val = (g 0).val; have := u.isLt; omega
  | ⟨1, _⟩ => show win0_0.index t (1 : Fin 3) * 512 + 1 * p.val = (g 1).val; omega
  | ⟨2, _⟩ => show win0_0.index t (2 : Fin 3) * 1024 + 1 * j.val = (g 2).val; omega

/-- Entry `(q, j)` of `W`'s block: row `q` of column tile `t / 4 % 8`, column `j` of K-block `t % 4`. -/
theorem wblk_apply (c : Dev nD) (t : Fin cfg0.N) (q : Fin 512) (j : Fin 1024) (g : S4096x4096.Idx)
    (h0 : (g 0).val = 512 * (t.val / 4 % 8) + q.val) (h1 : (g 1).val = 1024 * (t.val % 4) + j.val) :
    wblk m c t (ix2 q j) = V m c main_arg2 g := by
  obtain ⟨e00, e01, e02, e10, e11, e20, e21, e30, e31, e40, e41, e50, e51, e52, -⟩ := idx_facts t
  unfold wblk iblk
  rw [View.read_apply]
  show V m c main_arg2 (((cfg0.win 1).blk t).view.emb (ix2 q j)) = V m c main_arg2 g
  refine congrArg (V m c main_arg2) (funext fun a => Fin.ext ?_)
  match a with
  | ⟨0, _⟩ => show win0_1.index t (0 : Fin 2) * 512 + 1 * q.val = (g 0).val; omega
  | ⟨1, _⟩ => show win0_1.index t (1 : Fin 2) * 1024 + 1 * j.val = (g 1).val; omega

/-- Entry `(r, j)` of `A`'s block: row `r`, column `j` of K-block `t % 4`. -/
theorem ablk_apply (c : Dev nD) (t : Fin cfg0.N) (r : Fin 32) (j : Fin 1024) (g : S32x4096.Idx)
    (h0 : (g 0).val = r.val) (h1 : (g 1).val = 1024 * (t.val % 4) + j.val) :
    ablk m c t (ix2 r j) = V m c main_arg4 g := by
  obtain ⟨e00, e01, e02, e10, e11, e20, e21, e30, e31, e40, e41, e50, e51, e52, -⟩ := idx_facts t
  unfold ablk iblk
  rw [View.read_apply]
  show V m c main_arg4 (((cfg0.win 2).blk t).view.emb (ix2 r j)) = V m c main_arg4 g
  refine congrArg (V m c main_arg4) (funext fun a => Fin.ext ?_)
  match a with
  | ⟨0, _⟩ => show win0_2.index t (0 : Fin 2) * 32 + 1 * r.val = (g 0).val; omega
  | ⟨1, _⟩ => show win0_2.index t (1 : Fin 2) * 1024 + 1 * j.val = (g 1).val; omega

/-- Entry `(q, r)` of `B_w`'s block: row `q` of column tile `t / 4 % 8`, column `r`. -/
theorem bwblk_apply (c : Dev nD) (t : Fin cfg0.N) (q : Fin 512) (r : Fin 32) (g : S4096x32.Idx)
    (h0 : (g 0).val = 512 * (t.val / 4 % 8) + q.val) (h1 : (g 1).val = r.val) :
    bwblk m c t (ix2 q r) = V m c main_arg5 g := by
  obtain ⟨e00, e01, e02, e10, e11, e20, e21, e30, e31, e40, e41, e50, e51, e52, -⟩ := idx_facts t
  unfold bwblk iblk
  rw [View.read_apply]
  show V m c main_arg5 (((cfg0.win 3).blk t).view.emb (ix2 q r)) = V m c main_arg5 g
  refine congrArg (V m c main_arg5) (funext fun a => Fin.ext ?_)
  match a with
  | ⟨0, _⟩ => show win0_3.index t (0 : Fin 2) * 512 + 1 * q.val = (g 0).val; omega
  | ⟨1, _⟩ => show win0_3.index t (1 : Fin 2) * 32 + 1 * r.val = (g 1).val; omega

/-- Entry `(u, q)` of the bias row's block: column `q` of column tile `t / 4 % 8`. -/
theorem biasblk_apply (c : Dev nD) (t : Fin cfg0.N) (u : Fin 1) (q : Fin 512) (g : S1x4096.Idx)
    (h0 : (g 0).val = 0) (h1 : (g 1).val = 512 * (t.val / 4 % 8) + q.val) :
    biasblk m c t (ix2 u q) = V m c main_v12 g := by
  obtain ⟨e00, e01, e02, e10, e11, e20, e21, e30, e31, e40, e41, e50, e51, e52, -⟩ := idx_facts t
  unfold biasblk iblk
  rw [View.read_apply]
  show V m c main_v12 (((cfg0.win 4).blk t).view.emb (ix2 u q)) = V m c main_v12 g
  refine congrArg (V m c main_v12) (funext fun a => Fin.ext ?_)
  match a with
  | ⟨0, _⟩ => show win0_4.index t (0 : Fin 2) * 1 + 1 * u.val = (g 0).val; have := u.isLt; omega
  | ⟨1, _⟩ => show win0_4.index t (1 : Fin 2) * 512 + 1 * q.val = (g 1).val; omega

/-- Entry `(u, p, v)` of the mask column's block: batch entry `t / 256`, row `p` of row tile `t / 32 % 8`. -/
theorem maskblk_apply (c : Dev nD) (t : Fin cfg0.N) (u : Fin 1) (p : Fin 512) (v : Fin 1) (g : S4x4096x1.Idx)
    (h0 : (g 0).val = t.val / 256) (h1 : (g 1).val = 512 * (t.val / 32 % 8) + p.val) (h2 : (g 2).val = 0) :
    maskblk m c t (ix3 u p v) = V m c main_v11 g := by
  obtain ⟨e00, e01, e02, e10, e11, e20, e21, e30, e31, e40, e41, e50, e51, e52, -⟩ := idx_facts t
  unfold maskblk iblk
  rw [View.read_apply]
  show V m c main_v11 (((cfg0.win 5).blk t).view.emb (ix3 u p v)) = V m c main_v11 g
  refine congrArg (V m c main_v11) (funext fun a => Fin.ext ?_)
  match a with
  | ⟨0, _⟩ => show win0_5.index t (0 : Fin 3) * 1 + 1 * u.val = (g 0).val; have := u.isLt; omega
  | ⟨1, _⟩ => show win0_5.index t (1 : Fin 3) * 512 + 1 * p.val = (g 1).val; omega
  | ⟨2, _⟩ => show win0_5.index t (2 : Fin 3) * 1 + 1 * v.val = (g 2).val; have := v.isLt; omega

/-! ## The two arrays the program builds before the kernel -/

/-- The bias row is the bias vector, reshaped to [1, 4096]. -/
theorem bias_arr (c : Dev nD) :
    (V m c main_v12 : S1x4096.Idx → Elt F .f32) = shapeCast S1x4096 (m ((c : Thread nD τ).loc main_arg3)) shapeCasts_S4096_S1x4096 := by
  dsimp only [Gen.V]
  simp only [Gen.hostOps0, Gen.hostOps0_1, Gen.hostOps0_2, List.flatten_cons, List.flatten_nil, List.append_nil, List.cons_append, List.nil_append]
  after_results
  rfl

/-- Its entry `(0, o)` is the bias at `o`. -/
theorem bias_at (c : Dev nD) (g : S1x4096.Idx) (o : Fin 4096) (h0 : (g 0).val = 0) (h1 : (g 1).val = o.val) :
    V m c main_v12 g = m ((c : Thread nD τ).loc main_arg3) (ix1 o) := by
  have hg : g = ix2 (0 : Fin 1) o := funext fun a => Fin.ext (by
    match a with
    | ⟨0, _⟩ => exact h0
    | ⟨1, _⟩ => exact h1)
  rw [bias_arr, hg]
  exact shapeCast_a_1a_apply _ _ _ _

/-- Which positions lie in a sequence's tail, as the program before the kernel computes it from the offsets:
    position `s` against `4096 - min (offset b, 4096)`, signed. -/
abbrev tailBits (off : IVec S4 32) : IVec S4x4096 1 :=
  cmpi CmpIPredicate.sge
    (broadcastInDim S4x4096 ![0, 1] bcast_S1x4096_S4x4096_0_1 (broadcastInDim S1x4096 ![1] bcast_S4096_S1x4096_1 (iotaInDim S4096 32 0)))
    (broadcastInDim S4x4096 ![0, 1] bcast_S4x1_S4x4096_0_1 (broadcastInDim S4x1 ![0] bcast_S4_S4x1_0
      (subi (broadcastInDim S4 ![] bcast_S_S4 (constantI S_ 32 4096#32))
        (minsi off (broadcastInDim S4 ![] bcast_S_S4 (constantI S_ 32 4096#32))))))

/-- The mask column: `2.0` where the tail bit is set, `0.0` elsewhere, with a trailing unit axis. -/
theorem mask_arr (c : Dev nD) :
    (V m c main_v11 : S4x4096x1.Idx → Elt F .f32) =
      broadcastInDim S4x4096x1 ![0, 1] bcast_S4x4096_S4x4096x1_0_1
        (select (tailBits (m ((c : Thread nD τ).loc main_arg1)))
          (broadcastInDim S4x4096 ![] bcast_S_S4x4096 (constant (F := F) S_ .f32 0x40000000#32))
          (broadcastInDim S4x4096 ![] bcast_S_S4x4096 (constant (F := F) S_ .f32 0x00000000#32))) := by
  dsimp only [Gen.V]
  simp only [Gen.hostOps0, Gen.hostOps0_1, Gen.hostOps0_2, List.flatten_cons, List.flatten_nil, List.append_nil, List.cons_append, List.nil_append]
  after_results
  rfl

/-- The tail bit at `(b, s)` is the specification's: the position word of `s` against `4096 - min (offset b, 4096)`. -/
theorem tailBits_at (off : IVec S4 32) (b : Fin 4) (s : Fin 4096) :
    tailBits off (ix2 b s) = Cert.ALoraSpec.inTail off b s := by
  unfold tailBits Cert.ALoraSpec.inTail
  show IntOp.cmpi .sge _ _ = IntOp.cmpi .sge _ _
  refine congrArg₂ (IntOp.cmpi CmpIPredicate.sge) ?_ ?_
  · rw [broadcastInDim_apply _ bcast_S1x4096_S4x4096_0_1 _ (ix2 b s) (ix2 (0 : Fin 1) s) (fun a => match a with
        | ⟨0, _⟩ => by show 0 = if (1 : Nat) = 1 then 0 else b.val; rw [if_pos rfl]
        | ⟨1, _⟩ => by show s.val = if (4096 : Nat) = 1 then 0 else s.val; rw [if_neg (by decide)]),
      broadcastInDim_apply _ bcast_S4096_S1x4096_1 _ (ix2 (0 : Fin 1) s) (ix1 s) (fun a => match a with
        | ⟨0, _⟩ => by show s.val = if (4096 : Nat) = 1 then 0 else s.val; rw [if_neg (by decide)])]
    rfl
  · rw [broadcastInDim_apply _ bcast_S4x1_S4x4096_0_1 _ (ix2 b s) (ix2 b (0 : Fin 1)) (fun a => match a with
        | ⟨0, _⟩ => by show b.val = if (4 : Nat) = 1 then 0 else b.val; rw [if_neg (by decide)]
        | ⟨1, _⟩ => by show 0 = if (1 : Nat) = 1 then 0 else s.val; rw [if_pos rfl]),
      broadcastInDim_apply _ bcast_S4_S4x1_0 _ (ix2 b (0 : Fin 1)) (ix1 b) (fun a => match a with
        | ⟨0, _⟩ => by show b.val = if (4 : Nat) = 1 then 0 else b.val; rw [if_neg (by decide)])]
    show IntOp.subi _ (IntOp.minsi _ _) = IntOp.subi _ (IntOp.minsi _ _)
    rw [broadcastInDim_apply _ bcast_S_S4 _ (ix1 b) ix0 (fun a => a.elim0)]
    rfl

/-- The mask column's entry at batch entry `b`, position `s`: `2` in the tail, `0` outside it. -/
theorem mask_at (m : (ℓ : Loc nD τ sig) → Buf (Elt Ideal) ℓ) (c : Dev nD) (g : S4x4096x1.Idx) (b : Fin 4) (s : Fin 4096)
    (h0 : (g 0).val = b.val) (h1 : (g 1).val = s.val) :
    V m c main_v11 g = Scalar.select (Cert.ALoraSpec.inTail (m ((c : Thread nD τ).loc main_arg1)) b s) Cert.ALoraSpec.two Cert.ALoraSpec.zero := by
  rw [mask_arr, broadcastInDim_apply _ bcast_S4x4096_S4x4096x1_0_1 _ g (ix2 b s) (fun a => match a with
      | ⟨0, _⟩ => by show b.val = if (4 : Nat) = 1 then 0 else (g 0).val; rw [if_neg (by decide), h0]
      | ⟨1, _⟩ => by show s.val = if (4096 : Nat) = 1 then 0 else (g 1).val; rw [if_neg (by decide), h1]),
    select_apply, tailBits_at,
    broadcastInDim_apply _ bcast_S_S4x4096 _ (ix2 b s) ix0 (fun a => a.elim0),
    broadcastInDim_apply _ bcast_S_S4x4096 _ (ix2 b s) ix0 (fun a => a.elim0)]
  rfl

end Cert.KernelIdeal.Blocks

end
-- ==== Proof.LibSumRuns.lean ====
/-
  Cutting a finite sum into consecutive runs.

  A sum over the `K * B` indices `0, 1, …, K * B - 1` is the sum, over the `K` consecutive runs of
  length `B`, of each run's own sum: index `B * s + j` is place `j` of run `s`. This only re-groups
  and re-orders the terms, so it holds in every commutative additive monoid — in particular on the
  extended reals, where no term is ever cancelled or moved across an infinity. `sum_four_runs` is
  the case of four runs, written out as the left-nested sum `((r₀ + r₁) + r₂) + r₃` an accumulator
  that adds one run at a time produces.
-/
import Mathlib.Algebra.BigOperators.Fin
import Mathlib.Data.Fintype.BigOperators
import Mathlib.Logic.Equiv.Fin.Basic

namespace Cert.LibSumRuns

/-- Place `j` of run `s` lies below `K * B`. -/
theorem run_lt {K B : ℕ} (s : Fin K) (j : Fin B) : B * s.val + j.val < K * B := by
  have hs : s.val + 1 ≤ K := s.isLt
  have hj := j.isLt
  calc B * s.val + j.val < B * s.val + B := by omega
    _ = B * (s.val + 1) := (Nat.mul_succ B s.val).symm
    _ ≤ B * K := Nat.mul_le_mul_left B hs
    _ = K * B := Nat.mul_comm B K

/-- The sum over `K * B` indices is the sum over the runs `s` of the sum over the places `j` of the
    term at index `B * s + j`. -/
theorem sum_runs {β : Type*} [AddCommMonoid β] {K B : ℕ} (f : Fin (K * B) → β) :
    ∑ d, f d = ∑ s : Fin K, ∑ j : Fin B, f ⟨B * s.val + j.val, run_lt s j⟩ := by
  rw [← Equiv.sum_comp finProdFinEquiv f, Fintype.sum_prod_type]
  refine Finset.sum_congr rfl fun s _ => Finset.sum_congr rfl fun j _ => ?_
  congr 1
  apply Fin.ext
  show j.val + B * s.val = B * s.val + j.val
  exact Nat.add_comm _ _

/-- Four runs, one added after the other. -/
theorem sum_four_runs {β : Type*} [AddCommMonoid β] {B : ℕ} (f : Fin (4 * B) → β) :
    ∑ d, f d =
      (((∑ j : Fin B, f ⟨B * 0 + j.val, run_lt (0 : Fin 4) j⟩)
        + ∑ j : Fin B, f ⟨B * 1 + j.val, run_lt (1 : Fin 4) j⟩)
        + ∑ j : Fin B, f ⟨B * 2 + j.val, run_lt (2 : Fin 4) j⟩)
        + ∑ j : Fin B, f ⟨B * 3 + j.val, run_lt (3 : Fin 4) j⟩ := by
  rw [sum_runs f, Fin.sum_univ_four]
  rfl

end Cert.LibSumRuns
-- ==== Proof.Folds.lean ====
/-
  The two accumulators after the last K-block of a tile: plain sums over the whole contraction axis.

  Within a tile the four K-blocks are four consecutive grid points `4 * r, …, 4 * r + 3`. The base
  accumulator is reset to zero and then gains, at each of the four points, that point's partial
  product `∑ j, x (0, p, j) * w (q, j)` of the blocks staged there; the low-rank accumulator likewise
  with the block of `A`. So after the fourth point each holds `0` plus four partial sums, added one
  after the other (the generated fold of the carried scratch, unrolled by the additive-fold lemma).
  The block staged at K-block `k` is columns `1024 * k … 1024 * k + 1023` of the same rows of the
  arrays, so the four partial sums are the four consecutive runs of the full sum over `d = 0 … 4095`:

      acc (p, q) = ∑ d, x (b, s, d) * W (o, d)        h (p, r) = ∑ d, x (b, s, d) * A (r, d)

  at the tile's batch entry `b`, global row `s` and global column `o`. Only re-grouping of a sum is
  used, which is valid on the extended reals without any finiteness.
-/
import proofs.«145406_j498216206382_1_alg».proof.Proof.Gen.KernelIdeal.Value
import proofs.«145406_j498216206382_1_alg».proof.Proof.Pieces
import proofs.«145406_j498216206382_1_alg».proof.Proof.BodyAt
import proofs.«145406_j498216206382_1_alg».proof.Proof.Blocks
import proofs.«145406_j498216206382_1_alg».proof.Proof.LibSumRuns
import Idealize.ShloMosaic.Lib.Pipeline.Value
import Idealize.ShloMosaic.Lib.ValueIdx

noncomputable section

open Idealize.ShloMosaic Idealize.ShloMosaic.TcCoe Idealize.SL.Sem

namespace Cert.KernelIdeal.Folds

open Cert.KernelIdeal Cert.KernelIdeal.Gen Cert.KernelIdeal.Value Cert.KernelIdeal.Blocks Idealize.ShloMosaic.ValueIdx

variable (m : (ℓ : Loc nD τ sig) → Buf (Elt Ideal) ℓ)

/-! ## The argument arrays, at their literal shapes -/

abbrev argX (c : Dev nD) : Vec Ideal S4x4096x4096 .f32 := m ((c : Thread nD τ).loc main_arg0)
abbrev argW (c : Dev nD) : Vec Ideal S4096x4096 .f32 := m ((c : Thread nD τ).loc main_arg2)
abbrev argA (c : Dev nD) : Vec Ideal S32x4096 .f32 := m ((c : Thread nD τ).loc main_arg4)

/-! ## What one point adds -/

/-- Point `n`'s partial product for the base accumulator (zero past the grid, where it is never used). -/
def accTerm (c : Dev nD) (n : ℕ) (i : S512x512.Idx) : Elt Ideal .f32 :=
  if h : n < cfg0.N then ∑ j : Fin 1024, xblk m c ⟨n, h⟩ (ix3 (0 : Fin 1) (i 0) j) * wblk m c ⟨n, h⟩ (ix2 (i 1) j) else 0

/-- Point `n`'s partial product for the low-rank accumulator. -/
def hTerm (c : Dev nD) (n : ℕ) (i : S512x32.Idx) : Elt Ideal .f32 :=
  if h : n < cfg0.N then ∑ j : Fin 1024, xblk m c ⟨n, h⟩ (ix3 (0 : Fin 1) (i 0) j) * ablk m c ⟨n, h⟩ (ix2 (i 1) j) else 0

/-- At a tile's first point the base accumulator restarts: zero plus the point's partial product. -/
theorem acc_reset (c : Dev nD) (n : ℕ) (hb : n < cfg0.N) (hn : n % 4 = 0) (junk : Vec Ideal S512x512 .f32) (i : S512x512.Idx) :
    scAt0_0 m c n hb junk i = 0 + accTerm m c n i := by
  obtain ⟨p, q, rfl⟩ : ∃ (p q : Fin 512), i = ix2 p q := ⟨i 0, i 1, eq_ix2 i⟩
  have h3 : ¬n % 4 = 3 := by omega
  unfold scAt0_0
  rw [dif_pos hn, dif_neg h3]
  refine (congrFun (Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))) (ix2 p q)).trans ?_
  refine (BodyAt.acc_step_apply (xblk m c (⟨n, hb⟩ : Fin cfg0.N)) (wblk m c (⟨n, hb⟩ : Fin cfg0.N)) (k0_pay1 (F := Ideal)) p q).trans ?_
  rw [BodyAt.acc_reset_apply]
  unfold accTerm
  rw [dif_pos hb]

/-- At every later point of the tile it gains the point's partial product. -/
theorem acc_step (c : Dev nD) (n : ℕ) (hb : n < cfg0.N) (hn : ¬n % 4 = 0) (acc : Vec Ideal S512x512 .f32) (i : S512x512.Idx) :
    scAt0_0 m c n hb acc i = acc i + accTerm m c n i := by
  obtain ⟨p, q, rfl⟩ : ∃ (p q : Fin 512), i = ix2 p q := ⟨i 0, i 1, eq_ix2 i⟩
  unfold scAt0_0
  rw [dif_neg hn]
  by_cases h3 : n % 4 = 3
  · rw [dif_pos h3]
    refine (congrFun (Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc _) (ix2 p q)).trans ?_
    refine (BodyAt.acc_step_apply (xblk m c (⟨n, hb⟩ : Fin cfg0.N)) (wblk m c (⟨n, hb⟩ : Fin cfg0.N)) acc p q).trans ?_
    unfold accTerm
    rw [dif_pos hb]
  · rw [dif_neg h3]
    refine (congrFun (Pieces.acc_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc _) (ix2 p q)).trans ?_
    refine (BodyAt.acc_step_apply (xblk m c (⟨n, hb⟩ : Fin cfg0.N)) (wblk m c (⟨n, hb⟩ : Fin cfg0.N)) acc p q).trans ?_
    unfold accTerm
    rw [dif_pos hb]

/-- The low-rank accumulator restarts at a tile's first point … -/
theorem h_reset (c : Dev nD) (n : ℕ) (hb : n < cfg0.N) (hn : n % 4 = 0) (junk : Vec Ideal S512x32 .f32) (i : S512x32.Idx) :
    scAt0_1 m c n hb junk i = 0 + hTerm m c n i := by
  obtain ⟨p, r, rfl⟩ : ∃ (p : Fin 512) (r : Fin 32), i = ix2 p r := ⟨i 0, i 1, eq_ix2 i⟩
  have h3 : ¬n % 4 = 3 := by omega
  unfold scAt0_1
  rw [dif_pos hn, dif_neg h3]
  refine (congrFun (Pieces.h_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))) (ix2 p r)).trans ?_
  refine (BodyAt.h_step_apply (xblk m c (⟨n, hb⟩ : Fin cfg0.N)) (ablk m c (⟨n, hb⟩ : Fin cfg0.N)) (k0_pay2 (F := Ideal)) p r).trans ?_
  rw [BodyAt.h_reset_apply]
  unfold hTerm
  rw [dif_pos hb]

/-- … and gains the point's partial product at every later one. -/
theorem h_step (c : Dev nD) (n : ℕ) (hb : n < cfg0.N) (hn : ¬n % 4 = 0) (acc : Vec Ideal S512x32 .f32) (i : S512x32.Idx) :
    scAt0_1 m c n hb acc i = acc i + hTerm m c n i := by
  obtain ⟨p, r, rfl⟩ : ∃ (p : Fin 512) (r : Fin 32), i = ix2 p r := ⟨i 0, i 1, eq_ix2 i⟩
  unfold scAt0_1
  rw [dif_neg hn]
  by_cases h3 : n % 4 = 3
  · rw [dif_pos h3]
    refine (congrFun (Pieces.h_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) _ acc) (ix2 p r)).trans ?_
    refine (BodyAt.h_step_apply (xblk m c (⟨n, hb⟩ : Fin cfg0.N)) (ablk m c (⟨n, hb⟩ : Fin cfg0.N)) acc p r).trans ?_
    unfold hTerm
    rw [dif_pos hb]
  · rw [dif_neg h3]
    refine (congrFun (Pieces.h_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) _ acc) (ix2 p r)).trans ?_
    refine (BodyAt.h_step_apply (xblk m c (⟨n, hb⟩ : Fin cfg0.N)) (ablk m c (⟨n, hb⟩ : Fin cfg0.N)) acc p r).trans ?_
    unfold hTerm
    rw [dif_pos hb]

/-! ## After any point: zero plus the partial products of the tile's points so far -/

theorem acc_fold (c : Dev nD) (t : Fin cfg0.N) (i : S512x512.Idx) :
    (outsAt0 m c t.val t.isLt).2.1 i = 0 + ∑ s ∈ Finset.range (t.val % 4 + 1), accTerm m c (4 * (t.val / 4) + s) i := by
  rw [soutsAt0_0_eq m c t]
  exact Pipeline.accAt_add_apply _ (scAt0_0 m c) (fun _ => 0) (accTerm m c) (4 * (t.val / 4)) 3
    (fun h i => acc_reset m c _ h (by omega) _ i)
    (fun n h acc i hlt hle => acc_step m c n h (by omega) acc i)
    (t.val % 4) (by omega) _ i

theorem h_fold (c : Dev nD) (t : Fin cfg0.N) (i : S512x32.Idx) :
    (outsAt0 m c t.val t.isLt).2.2 i = 0 + ∑ s ∈ Finset.range (t.val % 4 + 1), hTerm m c (4 * (t.val / 4) + s) i := by
  rw [soutsAt0_1_eq m c t]
  exact Pipeline.accAt_add_apply _ (scAt0_1 m c) (fun _ => 0) (hTerm m c) (4 * (t.val / 4)) 3
    (fun h i => h_reset m c _ h (by omega) _ i)
    (fun n h acc i hlt hle => h_step m c n h (by omega) acc i)
    (t.val % 4) (by omega) _ i

/-! ## A point's partial product, in terms of the arrays -/

/-- The base partial product of point `n`, K-block `k = n % 4`: run `k` of the full sum over `d`. -/
theorem accTerm_eq (c : Dev nD) (n : ℕ) (hb : n < cfg0.N) (p q : Fin 512) (b : Fin 4) (s o : Fin 4096) (k : Fin 4)
    (hbb : b.val = n / 256) (hs : s.val = 512 * (n / 32 % 8) + p.val) (ho : o.val = 512 * (n / 4 % 8) + q.val) (hk : k.val = n % 4) :
    accTerm m c n (ix2 p q)
      = ∑ j : Fin 1024, argX m c (ix3 b s ⟨1024 * k.val + j.val, Cert.LibSumRuns.run_lt k j⟩)
          * argW m c (ix2 o ⟨1024 * k.val + j.val, Cert.LibSumRuns.run_lt k j⟩) := by
  unfold accTerm
  rw [dif_pos hb]
  refine Finset.sum_congr rfl fun j _ => ?_
  rw [xblk_apply m c ⟨n, hb⟩ (0 : Fin 1) p j (ix3 b s ⟨1024 * k.val + j.val, Cert.LibSumRuns.run_lt k j⟩) hbb hs
      (by show 1024 * k.val + j.val = 1024 * (n % 4) + j.val; rw [hk]),
    wblk_apply m c ⟨n, hb⟩ q j (ix2 o ⟨1024 * k.val + j.val, Cert.LibSumRuns.run_lt k j⟩) ho
      (by show 1024 * k.val + j.val = 1024 * (n % 4) + j.val; rw [hk]),
    V_main_arg0, V_main_arg2]

/-- The low-rank partial product of point `n`, likewise. -/
theorem hTerm_eq (c : Dev nD) (n : ℕ) (hb : n < cfg0.N) (p : Fin 512) (r : Fin 32) (b : Fin 4) (s : Fin 4096) (k : Fin 4)
    (hbb : b.val = n / 256) (hs : s.val = 512 * (n / 32 % 8) + p.val) (hk : k.val = n % 4) :
    hTerm m c n (ix2 p r)
      = ∑ j : Fin 1024, argX m c (ix3 b s ⟨1024 * k.val + j.val, Cert.LibSumRuns.run_lt k j⟩)
          * argA m c (ix2 r ⟨1024 * k.val + j.val, Cert.LibSumRuns.run_lt k j⟩) := by
  unfold hTerm
  rw [dif_pos hb]
  refine Finset.sum_congr rfl fun j _ => ?_
  rw [xblk_apply m c ⟨n, hb⟩ (0 : Fin 1) p j (ix3 b s ⟨1024 * k.val + j.val, Cert.LibSumRuns.run_lt k j⟩) hbb hs
      (by show 1024 * k.val + j.val = 1024 * (n % 4) + j.val; rw [hk]),
    ablk_apply m c ⟨n, hb⟩ r j (ix2 r ⟨1024 * k.val + j.val, Cert.LibSumRuns.run_lt k j⟩) rfl
      (by show 1024 * k.val + j.val = 1024 * (n % 4) + j.val; rw [hk]),
    V_main_arg0, V_main_arg4]

/-! ## After a tile's last point: the full sums -/

/-- The base accumulator after the last K-block of the tile that point `t` closes. -/
theorem acc_final (c : Dev nD) (t : Fin cfg0.N) (ht : t.val % 4 = 3) (p q : Fin 512) (b : Fin 4) (s o : Fin 4096)
    (hbb : b.val = t.val / 256) (hs : s.val = 512 * (t.val / 32 % 8) + p.val) (ho : o.val = 512 * (t.val / 4 % 8) + q.val) :
    (outsAt0 m c t.val t.isLt).2.1 (ix2 p q)
      = ∑ d : Fin 4096, argX m c (ix3 b s d) * argW m c (ix2 o d) := by
  have hN : t.val < 1024 := lt_of_lt_of_eq t.isLt (show cfg0.N = 1024 from N_0)
  have hNeq : cfg0.N = 1024 := N_0
  have hN' : ∀ e, e < 4 → 4 * (t.val / 4) + e < cfg0.N := fun e he => by omega
  rw [acc_fold m c t (ix2 p q), ht]
  simp only [Finset.sum_range_succ, Finset.sum_range_zero, zero_add]
  rw [accTerm_eq m c (4 * (t.val / 4) + 0) (hN' 0 (by decide)) p q b s o 0 (by omega) (by omega) (by omega) (by show 0 = _; omega),
    accTerm_eq m c (4 * (t.val / 4) + 1) (hN' 1 (by decide)) p q b s o 1 (by omega) (by omega) (by omega) (by show 1 = _; omega),
    accTerm_eq m c (4 * (t.val / 4) + 2) (hN' 2 (by decide)) p q b s o 2 (by omega) (by omega) (by omega) (by show 2 = _; omega),
    accTerm_eq m c (4 * (t.val / 4) + 3) (hN' 3 (by decide)) p q b s o 3 (by omega) (by omega) (by omega) (by show 3 = _; omega)]
  exact (Cert.LibSumRuns.sum_four_runs (B := 1024)
    (fun d : Fin (4 * 1024) => argX m c (ix3 b s d) * argW m c (ix2 o d))).symm

/-- The low-rank accumulator after the last K-block of the tile that point `t` closes. -/
theorem h_final (c : Dev nD) (t : Fin cfg0.N) (ht : t.val % 4 = 3) (p : Fin 512) (r : Fin 32) (b : Fin 4) (s : Fin 4096)
    (hbb : b.val = t.val / 256) (hs : s.val = 512 * (t.val / 32 % 8) + p.val) :
    (outsAt0 m c t.val t.isLt).2.2 (ix2 p r)
      = ∑ d : Fin 4096, argX m c (ix3 b s d) * argA m c (ix2 r d) := by
  have hN : t.val < 1024 := lt_of_lt_of_eq t.isLt (show cfg0.N = 1024 from N_0)
  have hNeq : cfg0.N = 1024 := N_0
  have hN' : ∀ e, e < 4 → 4 * (t.val / 4) + e < cfg0.N := fun e he => by omega
  rw [h_fold m c t (ix2 p r), ht]
  simp only [Finset.sum_range_succ, Finset.sum_range_zero, zero_add]
  rw [hTerm_eq m c (4 * (t.val / 4) + 0) (hN' 0 (by decide)) p r b s 0 (by omega) (by omega) (by show 0 = _; omega),
    hTerm_eq m c (4 * (t.val / 4) + 1) (hN' 1 (by decide)) p r b s 1 (by omega) (by omega) (by show 1 = _; omega),
    hTerm_eq m c (4 * (t.val / 4) + 2) (hN' 2 (by decide)) p r b s 2 (by omega) (by omega) (by show 2 = _; omega),
    hTerm_eq m c (4 * (t.val / 4) + 3) (hN' 3 (by decide)) p r b s 3 (by omega) (by omega) (by show 3 = _; omega)]
  exact (Cert.LibSumRuns.sum_four_runs (B := 1024)
    (fun d : Fin (4 * 1024) => argX m c (ix3 b s d) * argA m c (ix2 r d))).symm

end Cert.KernelIdeal.Folds

end
-- ==== Proof.KernelValue.lean ====
/-
  What the kernel leaves in its result array: the specification `G` of its six argument arrays.

  The output tile is written once per tile, at the tile's last K-block (the points `t` with
  `t % 4 = 3`), from the two accumulators as that point leaves them. By the fold lemmas these are then
  the full sums over the contraction axis, so entry `(p, q)` of the tile is

      (∑ d, x (b, s, d) * W (o, d) + bias o) + mask (b, s) * ∑ r, (∑ d, x (b, s, d) * A (r, d)) * B_w (o, r)

  at the tile's batch entry `b`, global row `s` and global column `o`, with `mask (b, s)` equal to `2`
  in the tail of sequence `b` and `0` outside it. Scaling by that factor is the specification's
  selection (`scaled_eq_selected`), so the tile is `G` read through the tile's rectangle. The 4 × 8 × 8
  tiles are written back at those points and tile the result array, hence the array ends at `G`.
-/
import proofs.«145406_j498216206382_1_alg».proof.Proof.Gen.KernelIdeal.Value
import proofs.«145406_j498216206382_1_alg».proof.Proof.Pieces
import proofs.«145406_j498216206382_1_alg».proof.Proof.BodyAt
import proofs.«145406_j498216206382_1_alg».proof.Proof.Blocks
import proofs.«145406_j498216206382_1_alg».proof.Proof.Folds
import proofs.«145406_j498216206382_1_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.KernelValue

open Cert.KernelIdeal Cert.KernelIdeal.Gen Cert.KernelIdeal.Value Cert.KernelIdeal.Blocks Idealize.ShloMosaic.ValueIdx Cert.ALoraSpec
open Idealize.ShloMosaic.Pipeline (Dat)

variable (m : (ℓ : Loc nD τ sig) → Buf (Elt Ideal) ℓ) (ρ : Dev nD → PrngReg)

/-- The specification at the kernel's own argument arrays. -/
abbrev result (c : Dev nD) : Buf (Elt Ideal) ((c : Thread nD τ).loc main_v13) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The tile a closing point writes -/

/-- At a tile's last K-block the output tile is the epilogue of the `B_w`, bias and mask blocks and of the two
    accumulators AS THIS POINT LEAVES THEM (the body updates them before it reads them back). -/
theorem tile_at (c : Dev nD) (t : Fin cfg0.N) (h0 : ¬t.val % 4 = 0) (h1 : t.val % 4 = 3) :
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
      = k0_pay6 (bwblk m c t) (outsAt0 m c t.val t.isLt).2.2 (outsAt0 m c t.val t.isLt).2.1 (biasblk m c t) (maskblk m c t) := by
  rw [outsAt0_C m c t h0 h1]
  dsimp only
  rw [Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    Pieces.h_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2]

/-- Entry `(u, p, q)` of that tile is the specification at the array index `g` it is written to. -/
theorem tile_entry (c : Dev nD) (t : Fin cfg0.N) (h1 : t.val % 4 = 3) (u : Fin 1) (p q : Fin 512) (g : S4x4096x4096.Idx)
    (hb : (g 0).val = t.val / 256) (hs : (g 1).val = 512 * (t.val / 32 % 8) + p.val) (ho : (g 2).val = 512 * (t.val / 4 % 8) + q.val) :
    k0_pay6 (bwblk m c t) (outsAt0 m c t.val t.isLt).2.2 (outsAt0 m c t.val t.isLt).2.1 (biasblk m c t) (maskblk m c t) (ix3 u p q)
      = result m c g := by
  have hlow : ∑ r : Fin 32, (outsAt0 m c t.val t.isLt).2.2 (ix2 p r) * bwblk m c t (ix2 q r)
      = lowRank (m ((c : Thread nD τ).loc main_arg0)) (m ((c : Thread nD τ).loc main_arg4)) (m ((c : Thread nD τ).loc main_arg5)) (g 0) (g 1) (g 2) := by
    unfold lowRank proj
    refine Finset.sum_congr rfl fun r _ => ?_
    rw [Folds.h_final m c t h1 p r (g 0) (g 1) hb hs, bwblk_apply m c t q r (ix2 (g 2) r) ho rfl, V_main_arg5]
  rw [BodyAt.out_apply, hlow, Folds.acc_final m c t h1 p q (g 0) (g 1) (g 2) hb hs ho,
    biasblk_apply m c t (0 : Fin 1) q (ix2 (0 : Fin 1) (g 2)) rfl ho, bias_at m c (ix2 (0 : Fin 1) (g 2)) (g 2) rfl rfl,
    maskblk_apply m c t (0 : Fin 1) p (0 : Fin 1) (ix3 (g 0) (g 1) (0 : Fin 1)) hb hs rfl,
    mask_at m c (ix3 (g 0) (g 1) (0 : Fin 1)) (g 0) (g 1) rfl rfl, scaled_eq_selected]
  rfl

/-- The whole tile, entry by entry, is `G` read through the tile's rectangle of the result array. -/
theorem tile_eq (c : Dev nD) (t : Fin cfg0.N) (h1 : t.val % 4 = 3) :
    (fun y : S1x512x512.Idx => k0_pay6 (bwblk m c t) (outsAt0 m c t.val t.isLt).2.2 (outsAt0 m c t.val t.isLt).2.1 (biasblk m c t) (maskblk m c t) y)
      = fun y : S1x512x512.Idx => result m c (((cfg0.win 6).blk t).view.emb y) := by
  obtain ⟨-, -, -, -, -, -, -, -, -, -, -, -, -, -, e60, e61, e62⟩ := idx_facts t
  funext y
  obtain ⟨u, p, q, rfl⟩ : ∃ (u : Fin 1) (p q : Fin 512), y = ix3 u p q := ⟨y 0, y 1, y 2, eq_ix3 y⟩
  refine tile_entry m c t h1 u p q _ ?_ ?_ ?_
  · show win0_6.index t (0 : Fin 3) * 1 + 1 * u.val = t.val / 256; have := u.isLt; omega
  · show win0_6.index t (1 : Fin 3) * 512 + 1 * p.val = 512 * (t.val / 32 % 8) + p.val; omega
  · show win0_6.index t (2 : Fin 3) * 512 + 1 * q.val = 512 * (t.val / 4 % 8) + q.val; omega

/-- WHAT A CLOSING POINT WRITES BACK is the tile of `G` its rectangle names. -/
theorem flushed_eq (c : Dev nD) (t : Fin cfg0.N) (hf : (cfg0.win 6).flush t = true) :
    (dats m 0 c).flushed 6 t = ((cfg0.win 6).blk t).view.read (Elt Ideal) (result m c) := by
  have h1 : t.val % 4 = 3 := (flush0_6 t).mp hf
  have h0 : ¬t.val % 4 = 0 := by omega
  rw [flushed6_C m c t h0 h1, tile_at m c t h0 h1]
  exact tile_eq m c t h1

/-! ## The tiles cover the result array -/

/-- An index lies in point `t`'s tile iff each coordinate lies in the tile's range on its axis. -/
theorem mem_tile (t : Fin cfg0.N) (i : S4x4096x4096.Idx) :
    i ∈ ((cfg0.win 6).blk t).view.set ↔ ∀ a : Fin 3, win0_6.index t a * S1x512x512.size a ≤ (i a).val ∧ (i a).val < win0_6.index t a * S1x512x512.size a + S1x512x512.size a := by
  show i ∈ ((View.whole main_v13).slice (win0_6.rect t)).set ↔ _
  rw [View.set_slice_whole, Rect.mem_set_unit]
  exact Iff.rfl

/-- Every index `(b, s, o)` of the result lies in the tile written at the last K-block of batch entry `b`, row tile
    `s / 512`, column tile `o / 512`. -/
theorem cover (i : S4x4096x4096.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 4096 := (i 2).isLt
  have hN : cfg0.N = 1024 := N_0
  let t : Fin cfg0.N := ⟨256 * (i 0).val + 32 * ((i 1).val / 512) + 4 * ((i 2).val / 512) + 3, by rw [hN]; omega⟩
  have htv : t.val = 256 * (i 0).val + 32 * ((i 1).val / 512) + 4 * ((i 2).val / 512) + 3 := rfl
  obtain ⟨-, -, -, -, -, -, -, -, -, -, -, -, -, -, e60, e61, e62⟩ := idx_facts t
  refine ⟨t, (flush0_6 t).mpr (by omega), ?_⟩
  rw [mem_tile]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

/-! ## The result array, and the run -/

/-- After the run the result array holds `G` of the argument arrays. -/
theorem final (c : Dev nD) : (dats m 0 c).arrAt 6 cfg0.N = result m c :=
  (dats m 0 c).arrAt_eq_of_cover 6 (result m c) (flushed_eq m c) cover

/-- Every weakly fair execution of the idealized kernel terminates with the result array at `G` of the arguments and
    the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.KernelValue

end
-- ==== Proof.RefValue.lean ====
/-
  The reference computes the specification.

  Read one operation at a time at the entry `(b, s, o)`, the reference's result is
  `(∑ d, x (b, s, d) * W (o, d) + bias o) + select tail (lowRank * 2) 0`: its first contraction is the base
  projection, the bias is broadcast along the feature axis, the second and third contractions
  compose to the rank-32 correction, the constant `2` scales it, and the tail comparison — position
  `s` against `4096 - min (offset b, 4096)`, broadcast over the features — selects between it and `0`.
  That is the specification `G` term for term; only the index functions the broadcasts and
  contractions compose have to be identified with the plain coordinates.
-/
import proofs.«145406_j498216206382_1_alg».proof.Proof.Gen.ReferenceIdeal.Read
import proofs.«145406_j498216206382_1_alg».proof.Proof.Spec
import Idealize.ShloMosaic.Lib.ValueIdx

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.ALoraSpec

/-- The reference's result array is `G` of its six arguments. -/
theorem result_eq_G (x0 : (⟨S4x4096x4096, .f32⟩ : BufTy).Contents (Elt Ideal)) (x1 : (⟨S4, .i32⟩ : BufTy).Contents (Elt Ideal))
    (x2 : (⟨S4096x4096, .f32⟩ : BufTy).Contents (Elt Ideal)) (x3 : (⟨S4096, .f32⟩ : BufTy).Contents (Elt Ideal))
    (x4 : (⟨S32x4096, .f32⟩ : BufTy).Contents (Elt Ideal)) (x5 : (⟨S4096x32, .f32⟩ : BufTy).Contents (Elt Ideal)) :
    val_main_v20 (F := Ideal) x0 x1 x2 x3 x4 x5 = G x0 x1 x2 x3 x4 x5 := by
  funext i
  obtain ⟨b, s, o, rfl⟩ : ∃ (b : Fin 4) (s o : Fin 4096), i = ix3 b s o := ⟨i 0, i 1, i 2, eq_ix3 i⟩
  have eW_l : ∀ k : Fin 4096, lidx_main_v0 (ix3 b s o) k = ix3 b s k := fun k => funext fun a => Fin.ext (by
    match a with | ⟨0, _⟩ => rfl | ⟨1, _⟩ => rfl | ⟨2, _⟩ => rfl)
  have eW_r : ∀ k : Fin 4096, ridx_main_v0 (ix3 b s o) k = ix2 o k := fun k => funext fun a => Fin.ext (by
    match a with | ⟨0, _⟩ => rfl | ⟨1, _⟩ => rfl)
  have eBias : idx_main_v1 (idx_main_v2 (ix3 b s o)) = ix1 o := funext fun a => Fin.ext (by
    match a with | ⟨0, _⟩ => rfl)
  have eB_l : ∀ r : Fin 32, lidx_main_v5 (ix3 b s o) r = ix3 b s r := fun r => funext fun a => Fin.ext (by
    match a with | ⟨0, _⟩ => rfl | ⟨1, _⟩ => rfl | ⟨2, _⟩ => rfl)
  have eB_r : ∀ r : Fin 32, ridx_main_v5 (ix3 b s o) r = ix2 o r := fun r => funext fun a => Fin.ext (by
    match a with | ⟨0, _⟩ => rfl | ⟨1, _⟩ => rfl)
  have eA_l : ∀ (r : Fin 32) (k : Fin 4096), lidx_main_v4 (ix3 b s r) k = ix3 b s k := fun r k => funext fun a => Fin.ext (by
    match a with | ⟨0, _⟩ => rfl | ⟨1, _⟩ => rfl | ⟨2, _⟩ => rfl)
  have eA_r : ∀ (r : Fin 32) (k : Fin 4096), ridx_main_v4 (ix3 b s r) k = ix2 r k := fun r k => funext fun a => Fin.ext (by
    match a with | ⟨0, _⟩ => rfl | ⟨1, _⟩ => rfl)
  have ePos : idx_main_v11 (idx_main_v15 (idx_main_v18 (idx_main_call0_v0 (ix3 b s o)))) = ix1 s := funext fun a => Fin.ext (by
    match a with | ⟨0, _⟩ => rfl)
  have eOff : idx_main_v14 (idx_main_v16 (idx_main_v18 (idx_main_call0_v0 (ix3 b s o)))) = ix1 b := funext fun a => Fin.ext (by
    match a with | ⟨0, _⟩ => rfl)
  simp only [val_main_v20_apply, val_main_v3_apply, val_main_v0_apply, val_main_v2_apply, val_main_v1_apply,
    val_main_v19_apply, val_main_call0_v0_apply, val_main_v18_apply, val_main_v17_apply, val_main_v15_apply, val_main_v11_apply,
    val_main_v10_apply, val_main_v16_apply, val_main_v14_apply, val_main_v13_apply, val_main_v12_apply, val_main_c_0_apply,
    val_main_v9_apply, val_main_v8_apply, val_main_c_apply, val_main_v7_apply, val_main_v5_apply, val_main_v4_apply,
    val_main_v6_apply, val_main_cst_apply, val_main_call0_v1_apply, val_main_cst_1_apply,
    eW_l, eW_r, eBias, eB_l, eB_r, eA_l, eA_r, ePos, eOff]
  rfl

end Cert.ReferenceIdeal.RefValue

end
-- ==== Proof.lean ====
/-
  A linear layer with a rank-32 correction applied only on each sequence's tail, as one fused tiled kernel,
  against its plain reference: equal results over the extended reals.

  Both programs compute, at batch entry `b`, position `s` and output feature `o`,

      (∑ d, x (b, s, d) * W (o, d) + bias o) + [s in the tail of sequence b] · 2 · ∑ r, (∑ d, x (b, s, d) * A (r, d)) * B_w (o, r),

  the tail of sequence `b` being its last `min (offset b, 4096)` positions. The reference contracts the
  whole feature axis at once and selects between `correction * 2` and `0`. The kernel walks a
  4 × 8 × 8 × 4 grid of (batch entry, row tile, column tile, K-block): it accumulates `x · Wᵀ` and `x · Aᵀ`
  over the four K-blocks of a tile in two scratch buffers, and at the last K-block writes the tile as
  `(acc + bias) + mask * (h · B_wᵀ)`, where `mask` is a per-position column holding `2` in the tail and
  `0` outside it. Rounding the operands to bf16 before each product is the identity on an extended real.

  Two facts join the two sides, neither needing the inputs to be finite: a sum over 4096 indices is
  the sum of its four consecutive runs of 1024 (re-grouping only), and `select β 2 0 * L = select β (L * 2) 0`
  because the product commutes and `0 * L = 0` for every extended real `L`.

  The modules: `Spec` (the result as one function `G`, and the second fact), `LibSumRuns` (the first fact),
  `LibMatmulNT` (a product contracting both operands' last axes, read at an entry), `Pieces` and `BodyAt`
  (what one run of the body leaves, as arithmetic on its blocks, entry by entry), `Blocks` (the blocks as
  entries of the arrays; the bias row and mask column the program builds first), `Folds` (the accumulators
  after a tile's last K-block are the full sums), `KernelValue` (the result array is `G`), `RefValue` (the
  reference's result is `G`). The kernel's and the reference's frames and runs are the generated ones.
-/
import proofs.«145406_j498216206382_1_alg».proof.Defs
import proofs.«145406_j498216206382_1_alg».proof.Proof.Gen.Kernel
import proofs.«145406_j498216206382_1_alg».proof.Proof.Gen.Kernel.Skeleton
import proofs.«145406_j498216206382_1_alg».proof.Proof.Gen.Kernel.Launch
import proofs.«145406_j498216206382_1_alg».proof.Proof.Gen.Kernel.Points
import proofs.«145406_j498216206382_1_alg».proof.Proof.Gen.Kernel.Frame
import proofs.«145406_j498216206382_1_alg».proof.Proof.Gen.KernelIdeal
import proofs.«145406_j498216206382_1_alg».proof.Proof.Gen.KernelIdeal.Skeleton
import proofs.«145406_j498216206382_1_alg».proof.Proof.Gen.KernelIdeal.Launch
import proofs.«145406_j498216206382_1_alg».proof.Proof.Gen.KernelIdeal.Points
import proofs.«145406_j498216206382_1_alg».proof.Proof.Gen.KernelIdeal.Frame
import proofs.«145406_j498216206382_1_alg».proof.Proof.Gen.ReferenceIdeal
import proofs.«145406_j498216206382_1_alg».proof.Proof.Gen.Pre_finite_inputs
import proofs.«145406_j498216206382_1_alg».proof.Proof.Gen.KernelIdeal.Value
import proofs.«145406_j498216206382_1_alg».proof.Proof.Gen.ReferenceIdeal.Run
import proofs.«145406_j498216206382_1_alg».proof.Proof.Gen.ReferenceIdeal.Read
import proofs.«145406_j498216206382_1_alg».proof.Proof.KernelValue
import proofs.«145406_j498216206382_1_alg».proof.Proof.RefValue
import Idealize.ShloMosaic.Adequacy
import Idealize.ShloMosaic.Init

noncomputable section

namespace Cert.Proof

open Idealize.ShloMosaic Idealize.SL.Sem

/-- The word-level kernel runs to completion and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass's ledger is empty for this kernel, so this conjunct is the proposition `True`: there is nothing to prove. -/
theorem preserves : Cert.preserves_Kernel_KernelIdeal := trivial

/-- From memories that agree on the six arguments both programs end with the result array at `G` of those
    arguments: the kernel by its tiles (`KernelValue.run`), the reference operation by operation (`RefValue.result_eq_G`). -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq_G,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
